-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1250000 : Shape := ⟨2, ![2, 1250000]⟩
abbrev S1250000 : Shape := ⟨1, ![1250000]⟩
abbrev S200000x64 : Shape := ⟨2, ![200000, 64]⟩
abbrev S3x64 : Shape := ⟨2, ![3, 64]⟩
abbrev S_ : Shape := ⟨0, ![]⟩

class Facts : Prop where
  bcast_S_S1250000 : S_.BroadcastsInDim S1250000 (![] : Fin 0 → Fin S1250000.rank)
  reducesTo_S1250000_S_d0 : S1250000.ReducesTo [0] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S3x64 : S_.BroadcastsInDim S3x64 (![] : Fin 0 → Fin S3x64.rank)
  reducesTo_S3x64_S_d0_1 : S3x64.ReducesTo [0, 1] S_

variable [Facts]

def fn {F : FTy → Type} [FloatOps F] (main_arg0 : IVec S2x1250000 32) (main_arg1 : FVec F S1250000 .f32) (main_arg2 : IVec S1250000 32) (main_arg3 : FVec F S200000x64 .f32) (main_arg4 : FVec F S3x64 .f32) : IVec S_ 1 :=
  let main_v0 : FVec F S1250000 .f32 := Host.absf main_arg1
  let main_cst : FVec F S_ .f32 := constant S_ .f32 0x7F800000#32
  let main_v1 : FVec F S1250000 .f32 := broadcastInDim S1250000 ![] bcast_S_S1250000 main_cst
  let main_v2 : IVec S1250000 1 := cmpf .olt main_v0 main_v1
  let main_c : IVec S_ 1 := constantI S_ 1 1#1
  let main_v3 : IVec S_ 1 := (fun x v => Host.reduce IntOp.andi x v reducesTo_S1250000_S_d0 h_S_) main_v2 main_c
  let main_v4 : FVec F S200000x64 .f32 := Host.absf main_arg3
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  main_v13
-- ==== Kernel.lean ====
abbrev S2x1250000 : Shape := ⟨2, ![2, 1250000]⟩
abbrev S1250000 : Shape := ⟨1, ![1250000]⟩
abbrev S200000x64 : Shape := ⟨2, ![200000, 64]⟩
abbrev S3x64 : Shape := ⟨2, ![3, 64]⟩
abbrev S1x1250000 : Shape := ⟨2, ![1, 1250000]⟩
abbrev S_ : Shape := ⟨0, ![]⟩
abbrev S200000 : Shape := ⟨1, ![200000]⟩
abbrev S1250000x1 : Shape := ⟨2, ![1250000, 1]⟩
abbrev S1250000x64 : Shape := ⟨2, ![1250000, 64]⟩
abbrev S5000x64 : Shape := ⟨2, ![5000, 64]⟩
abbrev S5000x1 : Shape := ⟨2, ![5000, 1]⟩

abbrev nBuf : Space → Nat
  | .hbm => 120
  | .vmem => 24
  | .smem => 0
  | _ => 0

abbrev bufTy : (tb : Table) → Fin (tcTables nBuf tb) → BufTy
  | .hbm, ⟨0, _⟩ => ⟨S2x1250000, .i32⟩
  | .hbm, ⟨1, _⟩ => ⟨S1250000, .f32⟩
  | .hbm, ⟨2, _⟩ => ⟨S1250000, .i32⟩
  | .hbm, ⟨3, _⟩ => ⟨S200000x64, .f32⟩
  | .hbm, ⟨4, _⟩ => ⟨S3x64, .f32⟩
  | .hbm, ⟨5, _⟩ => ⟨S1x1250000, .i32⟩
  | .hbm, ⟨6, _⟩ => ⟨S1250000, .i32⟩
  | .hbm, ⟨7, _⟩ => ⟨S1x1250000, .i32⟩
  | .hbm, ⟨8, _⟩ => ⟨S1250000, .i32⟩
  | .hbm, ⟨9, _⟩ => ⟨S_, .f32⟩
  | .hbm, ⟨10, _⟩ => ⟨S1250000, .f32⟩
  | .hbm, ⟨11, _⟩ => ⟨S_, .f32⟩
  | .hbm, ⟨12, _⟩ => ⟨S200000, .f32⟩
  | .hbm, ⟨13, _⟩ => ⟨S1250000x1, .i32⟩
  | .hbm, ⟨14, _⟩ => ⟨S200000, .f32⟩
  | .hbm, ⟨15, _⟩ => ⟨S_, .f32⟩
  | .hbm, ⟨16, _⟩ => ⟨S200000, .f32⟩
  | .hbm, ⟨17, _⟩ => ⟨S200000, .i1⟩
  | .hbm, ⟨18, _⟩ => ⟨S_, .f32⟩
  | .hbm, ⟨19, _⟩ => ⟨S200000, .f32⟩
  | .hbm, ⟨20, _⟩ => ⟨S200000, .i1⟩
  | .hbm, ⟨21, _⟩ => ⟨S_, .f32⟩
  | .hbm, ⟨22, _⟩ => ⟨S_, .f32⟩
  | .hbm, ⟨23, _⟩ => ⟨S200000, .f32⟩
  | .hbm, ⟨24, _⟩ => ⟨S200000, .f32⟩
  | .hbm, ⟨25, _⟩ => ⟨S200000, .f32⟩
  | .hbm, ⟨26, _⟩ => ⟨S_, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .i32⟩
  | .hbm, ⟨31, _⟩ => ⟨S1250000, .i32⟩
  | .hbm, ⟨32, _⟩ => ⟨S1250000, .i1⟩
  | .hbm, ⟨33, _⟩ => ⟨S_, .i32⟩
  | .hbm, ⟨34, _⟩ => ⟨S1250000, .i32⟩
  | .hbm, ⟨35, _⟩ => ⟨S1250000, .i32⟩
  | .hbm, ⟨36, _⟩ => ⟨S1250000, .i32⟩
  | .hbm, ⟨37, _⟩ => ⟨S1250000x1, .i32⟩
  | .hbm, ⟨38, _⟩ => ⟨S1250000, .f32⟩
  | .hbm, ⟨39, _⟩ => ⟨S_, .i32⟩
  | .hbm, ⟨40, _⟩ => ⟨S1250000, .i32⟩
  | .hbm, ⟨41, _⟩ => ⟨S1250000, .i1⟩
  | .hbm, ⟨42, _⟩ => ⟨S_, .i32⟩
  | .hbm, ⟨43, _⟩ => ⟨S1250000, .i32⟩
  | .hbm, ⟨44, _⟩ => ⟨S1250000, .i32⟩
  | .hbm, ⟨45, _⟩ => ⟨S1250000, .i32⟩
  | .hbm, ⟨46, _⟩ => ⟨S1250000x1, .i32⟩
  | .hbm, ⟨47, _⟩ => ⟨S1250000, .f32⟩
  | .hbm, ⟨48, _⟩ => ⟨S1250000, .f32⟩
  | .hbm, ⟨49, _⟩ => ⟨S_, .i32⟩
  | .hbm, ⟨50, _⟩ => ⟨S1250000, .i32⟩
  | .hbm, ⟨51, _⟩ => ⟨S1250000, .i1⟩
  | .hbm, ⟨52, _⟩ => ⟨S_, .i32⟩
  | .hbm, ⟨53, _⟩ => ⟨S1250000, .i32⟩
  | .hbm, ⟨54, _⟩ => ⟨S1250000, .i32⟩
  | .hbm, ⟨55, _⟩ => ⟨S1250000, .i32⟩
  | .hbm, ⟨56, _⟩ => ⟨S1250000x1, .i32⟩
  | .hbm, ⟨57, _⟩ => ⟨S1250000x64, .f32⟩
  | .hbm, ⟨58, _⟩ => ⟨S1250000, .f32⟩
  | .hbm, ⟨59, _⟩ => ⟨S1250000x1, .f32⟩
  | .hbm, ⟨60, _⟩ => ⟨S1250000x1, .f32⟩
  | .hbm, ⟨61, _⟩ => ⟨S1250000x64, .f32⟩
  | .hbm, ⟨62, _⟩ => ⟨S1250000x64, .f32⟩
  | .hbm, ⟨63, _⟩ => ⟨S_, .f32⟩
  | .hbm, ⟨64, _⟩ => ⟨S200000x64, .f32⟩
  | .hbm, ⟨65, _⟩ => ⟨S200000x64, .f32⟩
  | .hbm, ⟨66, _⟩ => ⟨S_, .i32⟩
  | .hbm, ⟨67, _⟩ => ⟨S1250000, .i32⟩
  | .hbm, ⟨68, _⟩ => ⟨S1250000, .i1⟩
  | .hbm, ⟨69, _⟩ => ⟨S_, .i32⟩
  | .hbm, ⟨70, _⟩ => ⟨S1250000, .i32⟩
  | .hbm, ⟨71, _⟩ => ⟨S1250000, .i32⟩
  | .hbm, ⟨72, _⟩ => ⟨S1250000, .i32⟩
  | .hbm, ⟨73, _⟩ => ⟨S1250000x1, .i32⟩
  | .hbm, ⟨74, _⟩ => ⟨S1250000x64, .f32⟩
  | .hbm, ⟨75, _⟩ => ⟨S1250000x64, .f32⟩
  | .hbm, ⟨76, _⟩ => ⟨S_, .f32⟩
  | .hbm, ⟨77, _⟩ => ⟨S200000x64, .f32⟩
  | .hbm, ⟨78, _⟩ => ⟨S1250000x1, .i32⟩
  | .hbm, ⟨79, _⟩ => ⟨S200000x64, .f32⟩
  | .hbm, ⟨80, _⟩ => ⟨S_, .f32⟩
  | .hbm, ⟨81, _⟩ => ⟨S200000x64, .f32⟩
  | .hbm, ⟨82, _⟩ => ⟨S200000x64, .f32⟩
  | .hbm, ⟨83, _⟩ => ⟨S200000x64, .f32⟩
  | .hbm, ⟨84, _⟩ => ⟨S_, .i32⟩
  | .hbm, ⟨85, _⟩ => ⟨S1250000, .i32⟩
  | .hbm, ⟨86, _⟩ => ⟨S1250000, .i1⟩
  | .hbm, ⟨87, _⟩ => ⟨S_, .i32⟩
  | .hbm, ⟨88, _⟩ => ⟨S1250000, .i32⟩
  | .hbm, ⟨89, _⟩ => ⟨S1250000, .i32⟩
  | .hbm, ⟨90, _⟩ => ⟨S1250000, .i32⟩
  | .hbm, ⟨91, _⟩ => ⟨S1250000x1, .i32⟩
  | .hbm, ⟨92, _⟩ => ⟨S1250000x64, .f32⟩
  | .hbm, ⟨93, _⟩ => ⟨S1250000x64, .f32⟩
  | .hbm, ⟨94, _⟩ => ⟨S_, .f32⟩
  | .hbm, ⟨95, _⟩ => ⟨S200000x64, .f32⟩
  | .hbm, ⟨96, _⟩ => ⟨S1250000x1, .i32⟩
  | .hbm, ⟨97, _⟩ => ⟨S200000x64, .f32⟩
  | .hbm, ⟨98, _⟩ => ⟨S_, .f32⟩
  | .hbm, ⟨99, _⟩ => ⟨S200000x64, .f32⟩
  | .hbm, ⟨100, _⟩ => ⟨S200000x64, .f32⟩
  | .hbm, ⟨101, _⟩ => ⟨S200000x64, .f32⟩
  | .hbm, ⟨102, _⟩ => ⟨S_, .i32⟩
  | .hbm, ⟨103, _⟩ => ⟨S1250000, .i32⟩
  | .hbm, ⟨104, _⟩ => ⟨S1250000, .i1⟩
  | .hbm, ⟨105, _⟩ => ⟨S_, .i32⟩
  | .hbm, ⟨106, _⟩ => ⟨S1250000, .i32⟩
  | .hbm, ⟨107, _⟩ => ⟨S1250000, .i32⟩
  | .hbm, ⟨108, _⟩ => ⟨S1250000, .i32⟩
  | .hbm, ⟨109, _⟩ => ⟨S1250000x1, .i32⟩
  | .hbm, ⟨110, _⟩ => ⟨S1250000x64, .f32⟩
  | .hbm, ⟨111, _⟩ => ⟨S1250000x64, .f32⟩
  | .hbm, ⟨112, _⟩ => ⟨S_, .f32⟩
  | .hbm, ⟨113, _⟩ => ⟨S200000x64, .f32⟩
  | .hbm, ⟨114, _⟩ => ⟨S1250000x1, .i32⟩
  | .hbm, ⟨115, _⟩ => ⟨S200000x64, .f32⟩
  | .hbm, ⟨116, _⟩ => ⟨S_, .f32⟩
  | .hbm, ⟨117, _⟩ => ⟨S200000x64, .f32⟩
  | .hbm, ⟨118, _⟩ => ⟨S200000x64, .f32⟩
  | .hbm, ⟨119, _⟩ => ⟨S200000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | _, _ => ⟨S2x1250000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_8 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_c_11 : Ref sig .tc := ⟨.hbm, 66, rfl⟩
abbrev main_v44 : Ref sig .tc := ⟨.hbm, 67, rfl⟩
abbrev main_v45 : Ref sig .tc := ⟨.hbm, 68, rfl⟩
abbrev main_c_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_14 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_15 : Ref sig .tc := ⟨.hbm, 84, rfl⟩
abbrev main_v58 : Ref sig .tc := ⟨.hbm, 85, rfl⟩
abbrev main_v59 : Ref sig .tc := ⟨.hbm, 86, rfl⟩
abbrev main_c_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_19 : Ref sig .tc := ⟨.hbm, 102, rfl⟩
abbrev main_v72 : Ref sig .tc := ⟨.hbm, 103, rfl⟩
abbrev main_v73 : Ref sig .tc := ⟨.hbm, 104, rfl⟩
abbrev main_c_20 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_21 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_22 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S200000 : S_.BroadcastsInDim S200000 (![] : Fin 0 → Fin S200000.rank)
  bcast_S1250000_S1250000x1_0 : S1250000.BroadcastsInDim S1250000x1 (![0] : Fin 1 → Fin S1250000x1.rank)
  shapeCasts_S1250000_S1250000x1 : S1250000.ShapeCasts S1250000x1
  bcast_S1250000x1_S1250000x64_0_1 : S1250000x1.BroadcastsInDim S1250000x64 (![0, 1] : Fin 2 → Fin S1250000x64.rank)
  bcast_S_S200000x64 : S_.BroadcastsInDim S200000x64 (![] : Fin 0 → Fin S200000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  scatter_S200000_S1250000x1_S1250000_n_0_0_1_wf : ScatterDims.WF S200000 S1250000x1 S1250000 [] [0] [0] 1
  gather_S200000_S1250000x1_S1250000_n_0_n_n_0_1_1_wf : GatherDims.WF S200000 S1250000x1 S1250000 [] [0] [] [0] [] 1 ![1]
  gather_S3x64_S1250000x1_S1250000x64_1_0_n_n_0_1_164_wf : GatherDims.WF S3x64 S1250000x1 S1250000x64 [1] [0] [] [0] [] 1 ![1, 64]
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1250000x64.size a
  hwx0_0 : ∀ i : grid0.Coords, EltTy.bits .f32 = 32 ∨ (Rect.block (s := S1250000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S1250000x1.size a
  hwx0_1 : ∀ i : grid0.Coords, EltTy.bits .f32 = 32 ∨ (Rect.block (s := S1250000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1250000x64.size a
  hwx0_2 : ∀ i : grid0.Coords, EltTy.bits .f32 = 32 ∨ (Rect.block (s := S1250000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S1250000x64.size a
  hwx0_3 : ∀ i : grid0.Coords, EltTy.bits .f32 = 32 ∨ (Rect.block (s := S1250000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S1250000x64.size a
  hwx1_0 : ∀ i : grid1.Coords, EltTy.bits .f32 = 32 ∨ (Rect.block (s := S1250000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1250000x1.size a
  hwx1_1 : ∀ i : grid1.Coords, EltTy.bits .f32 = 32 ∨ (Rect.block (s := S1250000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S1250000x64.size a
  hwx1_2 : ∀ i : grid1.Coords, EltTy.bits .f32 = 32 ∨ (Rect.block (s := S1250000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S1250000x64.size a
  hwx1_3 : ∀ i : grid1.Coords, EltTy.bits .f32 = 32 ∨ (Rect.block (s := S1250000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S1250000x64.size a
  hwx2_0 : ∀ i : grid2.Coords, EltTy.bits .f32 = 32 ∨ (Rect.block (s := S1250000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S1250000x1.size a
  hwx2_1 : ∀ i : grid2.Coords, EltTy.bits .f32 = 32 ∨ (Rect.block (s := S1250000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S1250000x64.size a
  hwx2_2 : ∀ i : grid2.Coords, EltTy.bits .f32 = 32 ∨ (Rect.block (s := S1250000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S1250000x64.size a
  hwx2_3 : ∀ i : grid2.Coords, EltTy.bits .f32 = 32 ∨ (Rect.block (s := S1250000x64) S5000x64.size (cc2_transform_3 i) (hinb2_3 i)).WholeWords (EltTy.packing .f32)

variable [Facts₀]

def scatter_S200000_S1250000x1_S1250000_n_0_0_1 : ScatterDims S200000 S1250000x1 S1250000 where
  updateWindowDims := []
  insertedWindowDims := [0]
  scatterDimsToOperandDims := [0]
  indexVectorDim := 1
  wf := scatter_S200000_S1250000x1_S1250000_n_0_0_1_wf
def gather_S200000_S1250000x1_S1250000_n_0_n_n_0_1_1 : GatherDims S200000 S1250000x1 S1250000 where
  offsetDims := []
  collapsedSliceDims := [0]
  operandBatchingDims := []
  startIndicesBatchingDims := []
  startIndexMap := [0]
  indexVectorDim := 1
  sliceSizes := ![1]
  wf := gather_S200000_S1250000x1_S1250000_n_0_n_n_0_1_1_wf
def gather_S3x64_S1250000x1_S1250000x64_1_0_n_n_0_1_164 : GatherDims S3x64 S1250000x1 S1250000x64 where
  offsetDims := [1]
  collapsedSliceDims := [0]
  operandBatchingDims := []
  startIndicesBatchingDims := []
  startIndexMap := [0]
  indexVectorDim := 1
  sliceSizes := ![1, 64]
  wf := gather_S3x64_S1250000x1_S1250000x64_1_0_n_n_0_1_164_wf
def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf

abbrev win0_0 : Pipeline.Window sig grid0 :=
  Pipeline.Window.ofSpec (Memref.whole main_v50) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v64) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v65) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v78) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v79) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x1250000 : Shape := ⟨2, ![2, 1250000]⟩
abbrev S1250000 : Shape := ⟨1, ![1250000]⟩
abbrev S200000x64 : Shape := ⟨2, ![200000, 64]⟩
abbrev S3x64 : Shape := ⟨2, ![3, 64]⟩
abbrev S1x1250000 : Shape := ⟨2, ![1, 1250000]⟩
abbrev S_ : Shape := ⟨0, ![]⟩
abbrev S200000 : Shape := ⟨1, ![200000]⟩
abbrev S1250000x1 : Shape := ⟨2, ![1250000, 1]⟩
abbrev S1250000x64 : Shape := ⟨2, ![1250000, 64]⟩

abbrev nBuf : Space → Nat
  | .hbm => 131
  | .vmem => 0
  | .smem => 0
  | _ => 0

abbrev hbmTy0_0 (i : Nat) : BufTy := match i % 128 with
  | 0 => ⟨S2x1250000, .i32⟩
  | 1 => ⟨S1250000, .f32⟩
  | 2 => ⟨S1250000, .i32⟩
  | 3 => ⟨S200000x64, .f32⟩
  | 4 => ⟨S3x64, .f32⟩
  | 5 => ⟨S1x1250000, .i32⟩
  | 6 => ⟨S1250000, .i32⟩
  | 7 => ⟨S1x1250000, .i32⟩
  | 8 => ⟨S1250000, .i32⟩
  | 9 => ⟨S_, .f32⟩
  | 10 => ⟨S1250000, .f32⟩
  | 11 => ⟨S_, .f32⟩
  | 12 => ⟨S200000, .f32⟩
  | 13 => ⟨S1250000x1, .i32⟩
  | 14 => ⟨S200000, .f32⟩
  | 15 => ⟨S_, .f32⟩
  | 16 => ⟨S200000, .f32⟩
  | 17 => ⟨S200000, .i1⟩
  | 18 => ⟨S_, .f32⟩
  | 19 => ⟨S200000, .f32⟩
  | 20 => ⟨S200000, .i1⟩
  | 21 => ⟨S_, .f32⟩
  | 22 => ⟨S_, .f32⟩
  | 23 => ⟨S200000, .f32⟩
  | 24 => ⟨S200000, .f32⟩
  | 25 => ⟨S200000, .f32⟩
  | 26 => ⟨S_, .f32⟩
  | 27 => ⟨S_, .f32⟩
  | 28 => ⟨S200000, .f32⟩
  | 29 => ⟨S200000, .f32⟩
  | 30 => ⟨S_, .i32⟩
  | 31 => ⟨S1250000, .i32⟩
  | 32 => ⟨S1250000, .i1⟩
  | 33 => ⟨S_, .i32⟩
  | 34 => ⟨S1250000, .i32⟩
  | 35 => ⟨S1250000, .i32⟩
  | 36 => ⟨S1250000, .i32⟩
  | 37 => ⟨S1250000x1, .i32⟩
  | 38 => ⟨S1250000, .f32⟩
  | 39 => ⟨S_, .i32⟩
  | 40 => ⟨S1250000, .i32⟩
  | 41 => ⟨S1250000, .i1⟩
  | 42 => ⟨S_, .i32⟩
  | 43 => ⟨S1250000, .i32⟩
  | 44 => ⟨S1250000, .i32⟩
  | 45 => ⟨S1250000, .i32⟩
  | 46 => ⟨S1250000x1, .i32⟩
  | 47 => ⟨S1250000, .f32⟩
  | 48 => ⟨S1250000, .f32⟩
  | 49 => ⟨S1250000x1, .f32⟩
  | 50 => ⟨S_, .i32⟩
  | 51 => ⟨S1250000, .i32⟩
  | 52 => ⟨S1250000, .i1⟩
  | 53 => ⟨S_, .i32⟩
  | 54 => ⟨S1250000, .i32⟩
  | 55 => ⟨S1250000, .i32⟩
  | 56 => ⟨S1250000, .i32⟩
  | 57 => ⟨S1250000x1, .i32⟩
  | 58 => ⟨S1250000x64, .f32⟩
  | 59 => ⟨S_, .f32⟩
  | 60 => ⟨S200000x64, .f32⟩
  | 61 => ⟨S200000x64, .f32⟩
  | 62 => ⟨S_, .i32⟩
  | 63 => ⟨S1250000, .i32⟩
  | 64 => ⟨S1250000, .i1⟩
  | 65 => ⟨S_, .i32⟩
  | 66 => ⟨S1250000, .i32⟩
  | 67 => ⟨S1250000, .i32⟩
  | 68 => ⟨S1250000, .i32⟩
  | 69 => ⟨S1250000x1, .i32⟩
  | 70 => ⟨S1250000x64, .f32⟩
  | 71 => ⟨S1250000x1, .f32⟩
  | 72 => ⟨S1250000x64, .f32⟩
  | 73 => ⟨S1250000x64, .f32⟩
  | 74 => ⟨S1250000x64, .f32⟩
  | 75 => ⟨S1250000x64, .f32⟩
  | 76 => ⟨S1250000x64, .f32⟩
  | 77 => ⟨S_, .f32⟩
  | 78 => ⟨S200000x64, .f32⟩
  | 79 => ⟨S1250000x1, .i32⟩
  | 80 => ⟨S200000x64, .f32⟩
  | 81 => ⟨S_, .f32⟩
  | 82 => ⟨S200000x64, .f32⟩
  | 83 => ⟨S200000x64, .f32⟩
  | 84 => ⟨S200000x64, .f32⟩
  | 85 => ⟨S_, .i32⟩
  | 86 => ⟨S1250000, .i32⟩
  | 87 => ⟨S1250000, .i1⟩
  | 88 => ⟨S_, .i32⟩
  | 89 => ⟨S1250000, .i32⟩
  | 90 => ⟨S1250000, .i32⟩
  | 91 => ⟨S1250000, .i32⟩
  | 92 => ⟨S1250000x1, .i32⟩
  | 93 => ⟨S1250000x64, .f32⟩
  | 94 => ⟨S1250000x1, .f32⟩
  | 95 => ⟨S1250000x64, .f32⟩
  | 96 => ⟨S1250000x64, .f32⟩
  | 97 => ⟨S1250000x64, .f32⟩
  | 98 => ⟨S1250000x64, .f32⟩
  | 99 => ⟨S1250000x64, .f32⟩
  | 100 => ⟨S_, .f32⟩
  | 101 => ⟨S200000x64, .f32⟩
  | 102 => ⟨S1250000x1, .i32⟩
  | 103 => ⟨S200000x64, .f32⟩
  | 104 => ⟨S_, .f32⟩
  | 105 => ⟨S200000x64, .f32⟩
  | 106 => ⟨S200000x64, .f32⟩
  | 107 => ⟨S200000x64, .f32⟩
  | 108 => ⟨S_, .i32⟩
  | 109 => ⟨S1250000, .i32⟩
  | 110 => ⟨S1250000, .i1⟩
  | 111 => ⟨S_, .i32⟩
  | 112 => ⟨S1250000, .i32⟩
  | 113 => ⟨S1250000, .i32⟩
  | 114 => ⟨S1250000, .i32⟩
  | 115 => ⟨S1250000x1, .i32⟩
  | 116 => ⟨S1250000x64, .f32⟩
  | 117 => ⟨S1250000x1, .f32⟩
  | 118 => ⟨S1250000x64, .f32⟩
  | 119 => ⟨S1250000x64, .f32⟩
  | 120 => ⟨S1250000x64, .f32⟩
  | 121 => ⟨S1250000x64, .f32⟩
  | 122 => ⟨S1250000x64, .f32⟩
  | 123 => ⟨S_, .f32⟩
  | 124 => ⟨S200000x64, .f32⟩
  | 125 => ⟨S1250000x1, .i32⟩
  | 126 => ⟨S200000x64, .f32⟩
  | 127 => ⟨S_, .f32⟩
  | _ => ⟨S2x1250000, .i32⟩

abbrev hbmTy0_1 (i : Nat) : BufTy := match i % 128 with
  | 0 => ⟨S200000x64, .f32⟩
  | 1 => ⟨S200000x64, .f32⟩
  | 2 => ⟨S200000x64, .f32⟩
  | _ => ⟨S2x1250000, .i32⟩

abbrev hbmTy (i : Nat) : BufTy := match i / 128 with
  | 0 => hbmTy0_0 i
  | 1 => hbmTy0_1 i
  | _ => ⟨S2x1250000, .i32⟩

abbrev bufTy : (tb : Table) → Fin (tcTables nBuf tb) → BufTy
  | .hbm, ⟨i, _⟩ => hbmTy i
  | _, _ => ⟨S2x1250000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_c_11 : Ref sig .tc := ⟨.hbm, 62, rfl⟩
abbrev main_v40 : Ref sig .tc := ⟨.hbm, 63, rfl⟩
abbrev main_v41 : Ref sig .tc := ⟨.hbm, 64, rfl⟩
abbrev main_c_12 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_15 : Ref sig .tc := ⟨.hbm, 85, rfl⟩
abbrev main_v59 : Ref sig .tc := ⟨.hbm, 86, rfl⟩
abbrev main_v60 : Ref sig .tc := ⟨.hbm, 87, rfl⟩
abbrev main_c_16 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_17 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_19 : Ref sig .tc := ⟨.hbm, 108, rfl⟩
abbrev main_v78 : Ref sig .tc := ⟨.hbm, 109, rfl⟩
abbrev main_v79 : Ref sig .tc := ⟨.hbm, 110, rfl⟩
abbrev main_c_20 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_21 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_22 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S200000 : S_.BroadcastsInDim S200000 (![] : Fin 0 → Fin S200000.rank)
  bcast_S1250000_S1250000x1_0 : S1250000.BroadcastsInDim S1250000x1 (![0] : Fin 1 → Fin S1250000x1.rank)
  bcast_S_S200000x64 : S_.BroadcastsInDim S200000x64 (![] : Fin 0 → Fin S200000x64.rank)
  bcast_S1250000x1_S1250000x64_0_1 : S1250000x1.BroadcastsInDim S1250000x64 (![0, 1] : Fin 2 → Fin S1250000x64.rank)
  scatter_S200000_S1250000x1_S1250000_n_0_0_1_wf : ScatterDims.WF S200000 S1250000x1 S1250000 [] [0] [0] 1
  gather_S200000_S1250000x1_S1250000_n_0_n_n_0_1_1_wf : GatherDims.WF S200000 S1250000x1 S1250000 [] [0] [] [0] [] 1 ![1]
  gather_S3x64_S1250000x1_S1250000x64_1_0_n_n_0_1_164_wf : GatherDims.WF S3x64 S1250000x1 S1250000x64 [1] [0] [] [0] [] 1 ![1, 64]
  gather_S200000x64_S1250000x1_S1250000x64_1_0_n_n_0_1_164_wf : GatherDims.WF S200000x64 S1250000x1 S1250000x64 [1] [0] [] [0] [] 1 ![1, 64]
  scatter_S200000x64_S1250000x1_S1250000x64_1_0_0_1_wf : ScatterDims.WF S200000x64 S1250000x1 S1250000x64 [1] [0] [0] 1

variable [Facts₀]

def scatter_S200000_S1250000x1_S1250000_n_0_0_1 : ScatterDims S200000 S1250000x1 S1250000 where
  updateWindowDims := []
  insertedWindowDims := [0]
  scatterDimsToOperandDims := [0]
  indexVectorDim := 1
  wf := scatter_S200000_S1250000x1_S1250000_n_0_0_1_wf
def gather_S200000_S1250000x1_S1250000_n_0_n_n_0_1_1 : GatherDims S200000 S1250000x1 S1250000 where
  offsetDims := []
  collapsedSliceDims := [0]
  operandBatchingDims := []
  startIndicesBatchingDims := []
  startIndexMap := [0]
  indexVectorDim := 1
  sliceSizes := ![1]
  wf := gather_S200000_S1250000x1_S1250000_n_0_n_n_0_1_1_wf
def gather_S3x64_S1250000x1_S1250000x64_1_0_n_n_0_1_164 : GatherDims S3x64 S1250000x1 S1250000x64 where
  offsetDims := [1]
  collapsedSliceDims := [0]
  operandBatchingDims := []
  startIndicesBatchingDims := []
  startIndexMap := [0]
  indexVectorDim := 1
  sliceSizes := ![1, 64]
  wf := gather_S3x64_S1250000x1_S1250000x64_1_0_n_n_0_1_164_wf
def gather_S200000x64_S1250000x1_S1250000x64_1_0_n_n_0_1_164 : GatherDims S200000x64 S1250000x1 S1250000x64 where
  offsetDims := [1]
  collapsedSliceDims := [0]
  operandBatchingDims := []
  startIndicesBatchingDims := []
  startIndexMap := [0]
  indexVectorDim := 1
  sliceSizes := ![1, 64]
  wf := gather_S200000x64_S1250000x1_S1250000x64_1_0_n_n_0_1_164_wf
def scatter_S200000x64_S1250000x1_S1250000x64_1_0_0_1 : ScatterDims S200000x64 S1250000x1 S1250000x64 where
  updateWindowDims := [1]
  insertedWindowDims := [0]
  scatterDimsToOperandDims := [0]
  indexVectorDim := 1
  wf := scatter_S200000x64_S1250000x1_S1250000x64_1_0_0_1_wf

class Facts : Prop extends Facts₀ where

variable [Facts]
-- ==== Proof.KSpec.lean ====
/-
  What the kernel's program computes, as one function of its five argument arrays.

  The program scales messages along the edges of a graph. From the edge list (two rows of node indices) it counts each
  node's out-degree, takes the inverse square root where the degree is positive (zero elsewhere), and gives each edge e the
  weight norm e = dinv (row e) * dinv (col e). Three times it then gathers the current node table h along the edges' rows,
  forms the message  msg (e, d) = h (row e, d) * (w e * norm e) + t (type e, d) * norm e  in a kernel region, and sums the
  messages into their column nodes; the result is a quarter of the input table plus a quarter of each of the three tables.

  The kernel region's part is `scaleArr`: x (e, d) * a (e, 0) + b (e, d) over whole arrays. The reference forms
  the same message as ((h (row e, d) * w e) + t (type e, d)) * norm e; `kerMsg` and `refMsg` are the two forms over the
  same four arrays. Everything here is stated for any float family.
-/
import proofs.«175497_j50457275794115_1_alg».proof.Proof.Gen.KernelIdeal

noncomputable section

namespace Cert.KernelIdeal.KSpec

open Cert.KernelIdeal Cert.KernelIdeal.Gen Idealize.ShloMosaic

variable {F : FTy → Type} [FloatOps F]

/-- The arrays' types, by shape. -/
abbrev TIdx2 (F : FTy → Type) := (⟨S2x1250000, .i32⟩ : BufTy).Contents (Elt F)
abbrev TEi (F : FTy → Type) := (⟨S1250000, .i32⟩ : BufTy).Contents (Elt F)
abbrev TE1i (F : FTy → Type) := (⟨S1250000x1, .i32⟩ : BufTy).Contents (Elt F)
abbrev TE (F : FTy → Type) := (⟨S1250000, .f32⟩ : BufTy).Contents (Elt F)
abbrev TE1 (F : FTy → Type) := (⟨S1250000x1, .f32⟩ : BufTy).Contents (Elt F)
abbrev TE64 (F : FTy → Type) := (⟨S1250000x64, .f32⟩ : BufTy).Contents (Elt F)
abbrev TN (F : FTy → Type) := (⟨S200000, .f32⟩ : BufTy).Contents (Elt F)
abbrev TN64 (F : FTy → Type) := (⟨S200000x64, .f32⟩ : BufTy).Contents (Elt F)
abbrev TT64 (F : FTy → Type) := (⟨S3x64, .f32⟩ : BufTy).Contents (Elt F)

/-! ## The kernel region as a function of whole arrays -/

/-- Entry (e, 0) of a one-lane column, from an index (e, d). -/
abbrev colOf (i : S1250000x64.Idx) : S1250000x1.Idx := fun a => match a with
  | ⟨0, _⟩ => ⟨(i 0).val, (i 0).isLt⟩
  | ⟨1, _⟩ => ⟨0, Nat.one_pos⟩

/-- x (e, d) * a (e, 0) + b (e, d). -/
def scaleArr (x : TE64 F) (a : TE1 F) (b : TE64 F) : TE64 F :=
  fun i => FloatOps.addf (FloatOps.mulf (x i) (a (colOf i))) (b i)

/-! ## The two forms of the message -/

/-- A vector over the edges as a one-lane column. -/
abbrev asCol (v : TE F) : TE1 F := broadcastInDim S1250000x1 ![0] bcast_S1250000_S1250000x1_0 v
/-- A one-lane column repeated along the 64 lanes. -/
abbrev alongLanes (v : TE1 F) : TE64 F := broadcastInDim S1250000x64 ![0, 1] bcast_S1250000x1_S1250000x64_0_1 v

/-- The kernel's form: g * (w * n) + t * n, the first product's second factor reshaped to a column. -/
def kerMsg (g : TE64 F) (w : TE F) (t : TE64 F) (n : TE F) : TE64 F :=
  scaleArr g (shapeCast S1250000x1 (mulf w n) shapeCasts_S1250000_S1250000x1) (mulf t (alongLanes (asCol n)))

/-- The reference's form: (g * w + t) * n. -/
def refMsg (g : TE64 F) (w : TE F) (t : TE64 F) (n : TE F) : TE64 F :=
  mulf (addf (mulf g (alongLanes (asCol w))) t) (alongLanes (asCol n))

/-! ## The stages of the kernel's program -/

/-- The edges' row nodes and column nodes: the two rows of the edge list. -/
def row (x0 : TIdx2 F) : TEi F :=
  shapeCast S1250000 (extractStridedSlice S1x1250000 ![0, 0] x0 slices_S2x1250000_S1x1250000_0_0) shapeCasts_S1x1250000_S1250000
def col (x0 : TIdx2 F) : TEi F :=
  shapeCast S1250000 (extractStridedSlice S1x1250000 ![1, 0] x0 slices_S2x1250000_S1x1250000_1_0) shapeCasts_S1x1250000_S1250000

/-- A vector of zeros over the nodes, and of ones over the edges. -/
def zerosN : TN F := broadcastInDim S200000 ![] bcast_S_S200000 (constant S_ .f32 0x00000000#32)
def onesE : TE F := broadcastInDim S1250000 ![] bcast_S_S1250000 (constant S_ .f32 0x3F800000#32)

/-- The out-degree of each node: the number of edges whose row is the node. -/
def deg (x0 : TIdx2 F) : TN F :=
  Host.scatterAdd scatter_S200000_S1250000x1_S1250000_n_0_0_1 zerosN
    (broadcastInDim S1250000x1 ![0] bcast_S1250000_S1250000x1_0 (row x0)) onesE

/-- The degree where it is positive, one elsewhere. -/
def degOrOne (x0 : TIdx2 F) : TN F :=
  select (cmpf (F := F) .ogt (deg x0) zerosN) (deg x0)
    (broadcastInDim S200000 ![] bcast_S_S200000 (id (constant S_ .f32 0x3F800000#32)))

/-- The inverse square root of the degree where it is positive, zero elsewhere. -/
def dinv (x0 : TIdx2 F) : TN F :=
  select (cmpf (F := F) .ogt (deg x0) zerosN) (Host.rsqrt (degOrOne x0))
    (broadcastInDim S200000 ![] bcast_S_S200000 (id (constant S_ .f32 0x00000000#32)))

/-- A node index taken from the end when negative (n added to it), as jnp reads indices. -/
def wrap (n : BitVec 32) (v : TEi F) : TEi F :=
  select (cmpi .slt v (broadcastInDim S1250000 ![] bcast_S_S1250000 (constantI S_ 32 0#32)))
    (addi v (broadcastInDim S1250000 ![] bcast_S_S1250000 (constantI S_ 32 n))) v

/-- The index column a gather along the edges' rows takes, and the one a scatter into the edges' columns takes. -/
def rowIdx (x0 : TIdx2 F) : TE1i F := broadcastInDim S1250000x1 ![0] bcast_S1250000_S1250000x1_0 (wrap 200000#32 (row x0))
def colWrapIdx (x0 : TIdx2 F) : TE1i F := broadcastInDim S1250000x1 ![0] bcast_S1250000_S1250000x1_0 (wrap 200000#32 (col x0))
def colIdx (x0 : TIdx2 F) : TE1i F := broadcastInDim S1250000x1 ![0] bcast_S1250000_S1250000x1_0 (col x0)

/-- The weight of each edge: dinv at its row times dinv at its column. -/
def norm (x0 : TIdx2 F) : TE F :=
  mulf (Host.gather gather_S200000_S1250000x1_S1250000_n_0_n_n_0_1_1 (dinv x0) (rowIdx x0))
    (Host.gather gather_S200000_S1250000x1_S1250000_n_0_n_n_0_1_1 (dinv x0) (colWrapIdx x0))

/-- The type embedding of each edge. -/
def et (x2 : TEi F) (x4 : TT64 F) : TE64 F :=
  Host.gather gather_S3x64_S1250000x1_S1250000x64_1_0_n_n_0_1_164 x4
    (broadcastInDim S1250000x1 ![0] bcast_S1250000_S1250000x1_0 (wrap 3#32 x2))

/-- The two arrays the kernel region takes beside the gathered table: a = w * norm as a column, b = et * norm. -/
def aArr (x0 : TIdx2 F) (x1 : TE F) : TE1 F := shapeCast S1250000x1 (mulf x1 (norm x0)) shapeCasts_S1250000_S1250000x1
def bArr (x0 : TIdx2 F) (x2 : TEi F) (x4 : TT64 F) : TE64 F := mulf (et x2 x4) (alongLanes (asCol (norm x0)))

/-- A table of zeros, and of quarters, over nodes and lanes. -/
def zerosN64 : TN64 F := broadcastInDim S200000x64 ![] bcast_S_S200000x64 (constant S_ .f32 0x00000000#32)
def quarter : TN64 F := broadcastInDim S200000x64 ![] bcast_S_S200000x64 (constant S_ .f32 0x3E800000#32)

/-- A table gathered along the edges' rows. -/
def gatherRows (x0 : TIdx2 F) (h : TN64 F) : TE64 F :=
  Host.gather gather_S200000x64_S1250000x1_S1250000x64_1_0_n_n_0_1_164 h (rowIdx x0)

/-- Messages summed into their column nodes. -/
def sumCols (x0 : TIdx2 F) (msg : TE64 F) : TN64 F :=
  Host.scatterAdd scatter_S200000x64_S1250000x1_S1250000x64_1_0_0_1 zerosN64 (colIdx x0) msg

/-- One layer as the kernel's program runs it: gather, the region, sum. -/
def layer (x0 : TIdx2 F) (x1 : TE F) (x2 : TEi F) (x4 : TT64 F) (h : TN64 F) : TN64 F :=
  sumCols x0 (scaleArr (gatherRows x0 h) (aArr x0 x1) (bArr x0 x2 x4))

def h1 (x0 : TIdx2 F) (x1 : TE F) (x2 : TEi F) (x3 : TN64 F) (x4 : TT64 F) : TN64 F := layer x0 x1 x2 x4 x3
def h2 (x0 : TIdx2 F) (x1 : TE F) (x2 : TEi F) (x3 : TN64 F) (x4 : TT64 F) : TN64 F := layer x0 x1 x2 x4 (h1 x0 x1 x2 x3 x4)
def h3 (x0 : TIdx2 F) (x1 : TE F) (x2 : TEi F) (x3 : TN64 F) (x4 : TT64 F) : TN64 F := layer x0 x1 x2 x4 (h2 x0 x1 x2 x3 x4)

/-- The running sums of quarters, and the program's result. -/
def out0 (x3 : TN64 F) : TN64 F := mulf x3 quarter
def out1 (x0 : TIdx2 F) (x1 : TE F) (x2 : TEi F) (x3 : TN64 F) (x4 : TT64 F) : TN64 F :=
  addf (out0 x3) (mulf (h1 x0 x1 x2 x3 x4) quarter)
def out2 (x0 : TIdx2 F) (x1 : TE F) (x2 : TEi F) (x3 : TN64 F) (x4 : TT64 F) : TN64 F :=
  addf (out1 x0 x1 x2 x3 x4) (mulf (h2 x0 x1 x2 x3 x4) quarter)
def kres (x0 : TIdx2 F) (x1 : TE F) (x2 : TEi F) (x3 : TN64 F) (x4 : TT64 F) : TN64 F :=
  addf (out2 x0 x1 x2 x3 x4) (mulf (h3 x0 x1 x2 x3 x4) quarter)

end Cert.KernelIdeal.KSpec

end
-- ==== Proof.KStagesA.lean ====
/-
  The contents of the kernel program's buffers when its first region is entered, as functions of the five arguments.

  Before the first region the program slices the edge list into rows and columns, counts degrees, takes their inverse
  square roots, forms the edge weights, the two arrays a and b the regions take, the first quarter of the result, and
  the first gather. Each buffer read here is the corresponding stage of the specification.
-/
import proofs.«175497_j50457275794115_1_alg».proof.Proof.Gen.KernelIdeal.Frame
import proofs.«175497_j50457275794115_1_alg».proof.Proof.KSpec
import Idealize.ShloMosaic.Lib.StableHlo.Run

set_option maxRecDepth 16384

noncomputable section

namespace Cert.KernelIdeal.StageA

open Cert.KernelIdeal Cert.KernelIdeal.Gen Cert.KernelIdeal.KSpec
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The five arguments as launched on core c. -/
abbrev X0 (c : Dev nD) : TIdx2 F := m ((c.tc : Thread nD τ).loc main_arg0)
abbrev X1 (c : Dev nD) : TE F := m ((c.tc : Thread nD τ).loc main_arg1)
abbrev X2 (c : Dev nD) : TEi F := m ((c.tc : Thread nD τ).loc main_arg2)
abbrev X3 (c : Dev nD) : TN64 F := m ((c.tc : Thread nD τ).loc main_arg3)
abbrev X4 (c : Dev nD) : TT64 F := m ((c.tc : Thread nD τ).loc main_arg4)

theorem W5_v1 (c : Dev nD) : W5 m ρ c (Proc.devRef .tc main_v1) = row (X0 m c) := by
  -- the boundary contents are a fold of the host operations from the launch memory; reading the fold at this
  -- buffer gives the operations' functions applied to the argument, which is the stage by definition
  dsimp only [W5, W4, W3, W2, W1, W0]
  after_results_simp
  rfl
theorem W5_v3 (c : Dev nD) : W5 m ρ c (Proc.devRef .tc main_v3) = col (X0 m c) := by
  -- the boundary contents are a fold of the host operations from the launch memory; reading the fold at this
  -- buffer gives the operations' functions applied to the argument, which is the stage by definition
  dsimp only [W5, W4, W3, W2, W1, W0]
  after_results_simp
  rfl
theorem W5_v38 (c : Dev nD) : W5 m ρ c (Proc.devRef .tc main_v38) = aArr (X0 m c) (X1 m c) := by
  -- as above; the edge weights pass through the two selections on the degree, whose operations are stated at their
  -- tensor types and moved to their buffers' types and back: each such pair of moves is the identity
  dsimp only [W5, W4, W3, W2, W1, W0]
  after_results_simp
  (try simp only [TRef.ofBuf, TRef.toBuf, cast_eq])
  rfl
theorem W5_v41 (c : Dev nD) : W5 m ρ c (Proc.devRef .tc main_v41) = bArr (X0 m c) (X2 m c) (X4 m c) := by
  -- as above; the edge weights pass through the two selections on the degree, whose operations are stated at their
  -- tensor types and moved to their buffers' types and back: each such pair of moves is the identity
  dsimp only [W5, W4, W3, W2, W1, W0]
  after_results_simp
  (try simp only [TRef.ofBuf, TRef.toBuf, cast_eq])
  rfl
theorem W5_v43 (c : Dev nD) : W5 m ρ c (Proc.devRef .tc main_v43) = out0 (X3 m c) := by
  -- the boundary contents are a fold of the host operations from the launch memory; reading the fold at this
  -- buffer gives the operations' functions applied to the argument, which is the stage by definition
  dsimp only [W5, W4, W3, W2, W1, W0]
  after_results_simp
  rfl
theorem W5_v50 (c : Dev nD) : W5 m ρ c (Proc.devRef .tc main_v50) = gatherRows (X0 m c) (X3 m c) := by
  -- the boundary contents are a fold of the host operations from the launch memory; reading the fold at this
  -- buffer gives the operations' functions applied to the argument, which is the stage by definition
  dsimp only [W5, W4, W3, W2, W1, W0]
  after_results_simp
  rfl

end Cert.KernelIdeal.StageA

end
-- ==== Proof.KRegion.lean ====
/-
  What each kernel region leaves in its output array, as one function of the arrays it reads.

  A region walks the 250 blocks of 5000 edges. At block t it loads rows 5000 t … 5000 t + 4999 of the gathered table x
  (64 lanes), of the column a (one lane) and of b (64 lanes), and stores x * a + b, the column repeated along the lanes,
  into the same rows of the output. The blocks tile the 1,250,000 rows, so the output array ends as
  x (e, d) * a (e, 0) + b (e, d) at every index.
-/
import proofs.«175497_j50457275794115_1_alg».proof.Proof.Gen.KernelIdeal.Frame
import proofs.«175497_j50457275794115_1_alg».proof.Proof.KSpec
import Idealize.ShloMosaic.Lib.Pipeline.Value

set_option maxRecDepth 16384

noncomputable section

namespace Cert.KernelIdeal.RegionV

open Cert.KernelIdeal Cert.KernelIdeal.Gen Cert.KernelIdeal.KSpec
open Idealize.ShloMosaic Idealize.ShloMosaic.TcCoe Idealize.SL.Sem

variable {F : FTy → Type} [FloatOps F]
variable (V : (c : Dev nD) → (b : Ref sig .tc) → Buf (Elt F) ((c : Thread nD τ).loc b))

/-! ## Region 0 -/

/-- The literal pair of zero offsets is the zero function. -/
theorem zeros2 : (![0, 0] : Fin 2 → Nat) = fun _ => 0 := funext fun a => by fin_cases a <;> rfl

/-- The column index (e, 0) under a block index (e, d). -/
abbrev colIn (j : S5000x64.Idx) : S5000x1.Idx := fun a => match a with
  | ⟨0, _⟩ => ⟨(j 0).val, (j 0).isLt⟩
  | ⟨1, _⟩ => ⟨0, Nat.one_pos⟩

/-- The body's payload at an index of the block: x (e, d) * a (e, 0) + b (e, d), the two shape casts to the same
    shape being the identity and the broadcast reading the column at lane 0. -/
theorem pay0_apply (x0 : Vec F S5000x64 .f32) (x1 : Vec F S5000x1 .f32) (x2 : Vec F S5000x64 .f32) (j : S5000x64.Idx) :
    k0_pay1 x0 x1 x2 j = FloatOps.addf (FloatOps.mulf (x0 j) (x1 (colIn j))) (x2 j) := by
  unfold k0_pay1
  simp only [shapeCast_self]
  show FloatOps.addf (FloatOps.mulf (x0 j) (broadcastTo S5000x64 x1 broadcasts_S5000x1_S5000x64 j)) (x2 j) = _
  rw [broadcastTo_apply x1 broadcasts_S5000x1_S5000x64 j (colIn j)]
  intro a
  match a with
  | ⟨0, _⟩ => rfl
  | ⟨1, _⟩ => rfl

/-- The index maps over the grid: every window's block index at point t is (t, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the scaled messages of the arrays the region entered with. -/
theorem flushed0_eq (c : Dev nD) (t : Fin cfg0.N) :
    (dat0 V c).flushed 3 t
      = ((cfg0.win 3).blk t).view.read (Elt F) (scaleArr (V c main_v50) (V c main_v38) (V c main_v41)) := by
  show (cfg0.win 3).cut (grid0.coords t) ((dat0 V c).after 3 t) = _
  rw [after0_3]
  unfold out0_3
  rw [View.canon_unit_zero zeros2]
  simp only [View.ld_unit_zero (S := S5000x64) zeros2, View.ld_unit_zero (S := S5000x1) zeros2]
  obtain ⟨e00, e01, e10, e11, e20, e21, e30, e31⟩ := idx_facts0 t
  funext j
  refine (pay0_apply _ _ _ j).trans ?_
  show FloatOps.addf (FloatOps.mulf (V c main_v50 (((cfg0.win 0).blk t).view.emb j)) (V c main_v38 (((cfg0.win 1).blk t).view.emb (colIn j)))) (V c main_v41 (((cfg0.win 2).blk t).view.emb j))
    = FloatOps.addf (FloatOps.mulf (V c main_v50 (((cfg0.win 3).blk t).view.emb j)) (V c main_v38 (colOf (((cfg0.win 3).blk t).view.emb j)))) (V c main_v41 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * (j 1).val = win0_3.index t (1 : Fin 2) * 64 + 1 * (j 1).val; omega
  have h2 : ((cfg0.win 2).blk t).view.emb j = ((cfg0.win 3).blk t).view.emb j := by
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 64 + 1 * (j 1).val = win0_3.index t (1 : Fin 2) * 64 + 1 * (j 1).val; omega
  have h1 : ((cfg0.win 1).blk t).view.emb (colIn j) = colOf (((cfg0.win 3).blk t).view.emb j) := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega
  rw [h0, h1, h2]

/-- An index of the array is in point t's block iff each coordinate is in the block's range on its axis. -/
theorem mem_blk0 (t : Fin cfg0.N) (i : S1250000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v51).slice (win0_3.rect t)).set ↔ _
  rw [View.set_slice_whole, Rect.mem_set_unit]
  exact Iff.rfl

/-- The blocks tile the rows: row r is in the block of point r / 5000. -/
theorem cover0 (i : S1250000x64.Idx) :
    ∃ t : Fin cfg0.N, (cfg0.win 3).flush t = true ∧ i ∈ ((cfg0.win 3).blk t).view.set := by
  have hi0 : (i 0).val < 1250000 := (i 0).isLt
  have hi1 : (i 1).val < 64 := (i 1).isLt
  have hq : (i 0).val / 5000 < 250 := by omega
  obtain ⟨-, -, -, -, -, -, e30, e31⟩ := idx_facts0 ⟨(i 0).val / 5000, hq⟩
  have e30' : win0_3.index ⟨(i 0).val / 5000, hq⟩ (0 : Fin 2) = (i 0).val / 5000 := e30
  refine ⟨⟨(i 0).val / 5000, hq⟩, flush0_3 _, ?_⟩
  rw [mem_blk0]
  intro a
  match a with
  | ⟨0, _⟩ =>
    show win0_3.index ⟨(i 0).val / 5000, hq⟩ (0 : Fin 2) * 5000 ≤ (i 0).val
      ∧ (i 0).val < win0_3.index ⟨(i 0).val / 5000, hq⟩ (0 : Fin 2) * 5000 + 5000
    omega
  | ⟨1, _⟩ =>
    show win0_3.index ⟨(i 0).val / 5000, hq⟩ (1 : Fin 2) * 64 ≤ (i 1).val
      ∧ (i 1).val < win0_3.index ⟨(i 0).val / 5000, hq⟩ (1 : Fin 2) * 64 + 64
    omega

/-- Region 0's output array after the region: the scaled messages of the arrays it entered with. -/
theorem arr0 (c : Dev nD) : (dat0 V c).arrAt 3 cfg0.N = scaleArr (V c main_v50) (V c main_v38) (V c main_v41) :=
  (dat0 V c).arrAt_eq_of_cover 3 (scaleArr (V c main_v50) (V c main_v38) (V c main_v41))
    (fun t _ => flushed0_eq V c t) cover0

/-! ## Region 1 -/

/-- The body's payload at an index of the block: x (e, d) * a (e, 0) + b (e, d). -/
theorem pay1_apply (x0 : Vec F S5000x64 .f32) (x1 : Vec F S5000x1 .f32) (x2 : Vec F S5000x64 .f32) (j : S5000x64.Idx) :
    k1_pay1 x0 x1 x2 j = FloatOps.addf (FloatOps.mulf (x0 j) (x1 (colIn j))) (x2 j) := by
  unfold k1_pay1
  simp only [shapeCast_self]
  show FloatOps.addf (FloatOps.mulf (x0 j) (broadcastTo S5000x64 x1 broadcasts_S5000x1_S5000x64 j)) (x2 j) = _
  rw [broadcastTo_apply x1 broadcasts_S5000x1_S5000x64 j (colIn j)]
  intro a
  match a with
  | ⟨0, _⟩ => rfl
  | ⟨1, _⟩ => rfl

/-- The index maps over the grid: every window's block index at point t is (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of the scaled messages of the arrays the region entered with. -/
theorem flushed1_eq (c : Dev nD) (t : Fin cfg1.N) :
    (dat1 V c).flushed 3 t
      = ((cfg1.win 3).blk t).view.read (Elt F) (scaleArr (V c main_v64) (V c main_v38) (V c main_v41)) := by
  show (cfg1.win 3).cut (grid1.coords t) ((dat1 V c).after 3 t) = _
  rw [after1_3]
  unfold out1_3
  rw [View.canon_unit_zero zeros2]
  simp only [View.ld_unit_zero (S := S5000x64) zeros2, View.ld_unit_zero (S := S5000x1) zeros2]
  obtain ⟨e00, e01, e10, e11, e20, e21, e30, e31⟩ := idx_facts1 t
  funext j
  refine (pay1_apply _ _ _ j).trans ?_
  show FloatOps.addf (FloatOps.mulf (V c main_v64 (((cfg1.win 0).blk t).view.emb j)) (V c main_v38 (((cfg1.win 1).blk t).view.emb (colIn j)))) (V c main_v41 (((cfg1.win 2).blk t).view.emb j))
    = FloatOps.addf (FloatOps.mulf (V c main_v64 (((cfg1.win 3).blk t).view.emb j)) (V c main_v38 (colOf (((cfg1.win 3).blk t).view.emb j)))) (V c main_v41 (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h2 : ((cfg1.win 2).blk t).view.emb j = ((cfg1.win 3).blk t).view.emb j := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 64 + 1 * (j 1).val = win1_3.index t (1 : Fin 2) * 64 + 1 * (j 1).val; omega
  have h1 : ((cfg1.win 1).blk t).view.emb (colIn j) = colOf (((cfg1.win 3).blk t).view.emb j) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  rw [h0, h1, h2]

/-- An index of the array is in point t's block iff each coordinate is in the block's range on its axis. -/
theorem mem_blk1 (t : Fin cfg1.N) (i : S1250000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v65).slice (win1_3.rect t)).set ↔ _
  rw [View.set_slice_whole, Rect.mem_set_unit]
  exact Iff.rfl

/-- The blocks tile the rows: row r is in the block of point r / 5000. -/
theorem cover1 (i : S1250000x64.Idx) :
    ∃ t : Fin cfg1.N, (cfg1.win 3).flush t = true ∧ i ∈ ((cfg1.win 3).blk t).view.set := by
  have hi0 : (i 0).val < 1250000 := (i 0).isLt
  have hi1 : (i 1).val < 64 := (i 1).isLt
  have hq : (i 0).val / 5000 < 250 := by omega
  obtain ⟨-, -, -, -, -, -, e30, e31⟩ := idx_facts1 ⟨(i 0).val / 5000, hq⟩
  have e30' : win1_3.index ⟨(i 0).val / 5000, hq⟩ (0 : Fin 2) = (i 0).val / 5000 := e30
  refine ⟨⟨(i 0).val / 5000, hq⟩, flush1_3 _, ?_⟩
  rw [mem_blk1]
  intro a
  match a with
  | ⟨0, _⟩ =>
    show win1_3.index ⟨(i 0).val / 5000, hq⟩ (0 : Fin 2) * 5000 ≤ (i 0).val
      ∧ (i 0).val < win1_3.index ⟨(i 0).val / 5000, hq⟩ (0 : Fin 2) * 5000 + 5000
    omega
  | ⟨1, _⟩ =>
    show win1_3.index ⟨(i 0).val / 5000, hq⟩ (1 : Fin 2) * 64 ≤ (i 1).val
      ∧ (i 1).val < win1_3.index ⟨(i 0).val / 5000, hq⟩ (1 : Fin 2) * 64 + 64
    omega

/-- Region 1's output array after the region. -/
theorem arr1 (c : Dev nD) : (dat1 V c).arrAt 3 cfg1.N = scaleArr (V c main_v64) (V c main_v38) (V c main_v41) :=
  (dat1 V c).arrAt_eq_of_cover 3 (scaleArr (V c main_v64) (V c main_v38) (V c main_v41))
    (fun t _ => flushed1_eq V c t) cover1

/-! ## Region 2 -/

/-- The body's payload at an index of the block: x (e, d) * a (e, 0) + b (e, d). -/
theorem pay2_apply (x0 : Vec F S5000x64 .f32) (x1 : Vec F S5000x1 .f32) (x2 : Vec F S5000x64 .f32) (j : S5000x64.Idx) :
    k2_pay1 x0 x1 x2 j = FloatOps.addf (FloatOps.mulf (x0 j) (x1 (colIn j))) (x2 j) := by
  unfold k2_pay1
  simp only [shapeCast_self]
  show FloatOps.addf (FloatOps.mulf (x0 j) (broadcastTo S5000x64 x1 broadcasts_S5000x1_S5000x64 j)) (x2 j) = _
  rw [broadcastTo_apply x1 broadcasts_S5000x1_S5000x64 j (colIn j)]
  intro a
  match a with
  | ⟨0, _⟩ => rfl
  | ⟨1, _⟩ => rfl

/-- The index maps over the grid: every window's block index at point t is (t, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of the scaled messages of the arrays the region entered with. -/
theorem flushed2_eq (c : Dev nD) (t : Fin cfg2.N) :
    (dat2 V c).flushed 3 t
      = ((cfg2.win 3).blk t).view.read (Elt F) (scaleArr (V c main_v78) (V c main_v38) (V c main_v41)) := by
  show (cfg2.win 3).cut (grid2.coords t) ((dat2 V c).after 3 t) = _
  rw [after2_3]
  unfold out2_3
  rw [View.canon_unit_zero zeros2]
  simp only [View.ld_unit_zero (S := S5000x64) zeros2, View.ld_unit_zero (S := S5000x1) zeros2]
  obtain ⟨e00, e01, e10, e11, e20, e21, e30, e31⟩ := idx_facts2 t
  funext j
  refine (pay2_apply _ _ _ j).trans ?_
  show FloatOps.addf (FloatOps.mulf (V c main_v78 (((cfg2.win 0).blk t).view.emb j)) (V c main_v38 (((cfg2.win 1).blk t).view.emb (colIn j)))) (V c main_v41 (((cfg2.win 2).blk t).view.emb j))
    = FloatOps.addf (FloatOps.mulf (V c main_v78 (((cfg2.win 3).blk t).view.emb j)) (V c main_v38 (colOf (((cfg2.win 3).blk t).view.emb j)))) (V c main_v41 (((cfg2.win 3).blk t).view.emb j))
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h2 : ((cfg2.win 2).blk t).view.emb j = ((cfg2.win 3).blk t).view.emb j := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 64 + 1 * (j 1).val = win2_3.index t (1 : Fin 2) * 64 + 1 * (j 1).val; omega
  have h1 : ((cfg2.win 1).blk t).view.emb (colIn j) = colOf (((cfg2.win 3).blk t).view.emb j) := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  rw [h0, h1, h2]

/-- An index of the array is in point t's block iff each coordinate is in the block's range on its axis. -/
theorem mem_blk2 (t : Fin cfg2.N) (i : S1250000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v79).slice (win2_3.rect t)).set ↔ _
  rw [View.set_slice_whole, Rect.mem_set_unit]
  exact Iff.rfl

/-- The blocks tile the rows: row r is in the block of point r / 5000. -/
theorem cover2 (i : S1250000x64.Idx) :
    ∃ t : Fin cfg2.N, (cfg2.win 3).flush t = true ∧ i ∈ ((cfg2.win 3).blk t).view.set := by
  have hi0 : (i 0).val < 1250000 := (i 0).isLt
  have hi1 : (i 1).val < 64 := (i 1).isLt
  have hq : (i 0).val / 5000 < 250 := by omega
  obtain ⟨-, -, -, -, -, -, e30, e31⟩ := idx_facts2 ⟨(i 0).val / 5000, hq⟩
  have e30' : win2_3.index ⟨(i 0).val / 5000, hq⟩ (0 : Fin 2) = (i 0).val / 5000 := e30
  refine ⟨⟨(i 0).val / 5000, hq⟩, flush2_3 _, ?_⟩
  rw [mem_blk2]
  intro a
  match a with
  | ⟨0, _⟩ =>
    show win2_3.index ⟨(i 0).val / 5000, hq⟩ (0 : Fin 2) * 5000 ≤ (i 0).val
      ∧ (i 0).val < win2_3.index ⟨(i 0).val / 5000, hq⟩ (0 : Fin 2) * 5000 + 5000
    omega
  | ⟨1, _⟩ =>
    show win2_3.index ⟨(i 0).val / 5000, hq⟩ (1 : Fin 2) * 64 ≤ (i 1).val
      ∧ (i 1).val < win2_3.index ⟨(i 0).val / 5000, hq⟩ (1 : Fin 2) * 64 + 64
    omega

/-- Region 2's output array after the region. -/
theorem arr2 (c : Dev nD) : (dat2 V c).arrAt 3 cfg2.N = scaleArr (V c main_v78) (V c main_v38) (V c main_v41) :=
  (dat2 V c).arrAt_eq_of_cover 3 (scaleArr (V c main_v78) (V c main_v38) (V c main_v41))
    (fun t _ => flushed2_eq V c t) cover2

end Cert.KernelIdeal.RegionV

end
-- ==== Proof.KStagesB.lean ====
/-
  The kernel program's result buffer after the run, as the specification's function of the five arguments.

  From the contents at the first region's entry the program alternates a region and a stretch of host operations three
  times: the region forms the messages from the gathered table, the stretch sums them into their column nodes, adds a
  quarter of the sum to the running result and gathers the new table for the next region. Read boundary by boundary,
  the tables are the specification's h1, h2, h3 and the result is its sum of quarters.
-/
import proofs.«175497_j50457275794115_1_alg».proof.Proof.KStagesA
import proofs.«175497_j50457275794115_1_alg».proof.Proof.KRegion

set_option maxRecDepth 16384

noncomputable section

namespace Cert.KernelIdeal.StageB

open Cert.KernelIdeal Cert.KernelIdeal.Gen Cert.KernelIdeal.KSpec Cert.KernelIdeal.StageA Cert.KernelIdeal.RegionV
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first region's exit

An array the region only reads holds at the exit what it held at the entry; the output array holds the scaled
messages of the three arrays read; every buffer that is not one of the region's arrays is untouched. -/

/-- An input array of the first region is at its exit what it was at its entry. -/
theorem W6_in (c : Dev nD) (w : Fin cfg0.W) (hin : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hin _).trans (A_eq0 (V5 m ρ) c w))

theorem W6_v1 (c : Dev nD) : W6 m ρ c (Proc.devRef .tc main_v1) = row (X0 m c) :=
  (W6_of_ne m ρ c main_v1 (by decide)).trans (W5_v1 m ρ c)
theorem W6_v3 (c : Dev nD) : W6 m ρ c (Proc.devRef .tc main_v3) = col (X0 m c) :=
  (W6_of_ne m ρ c main_v3 (by decide)).trans (W5_v3 m ρ c)
theorem W6_v38 (c : Dev nD) : W6 m ρ c (Proc.devRef .tc main_v38) = aArr (X0 m c) (X1 m c) :=
  (W6_in m ρ c 1 rfl).trans (W5_v38 m ρ c)
theorem W6_v41 (c : Dev nD) : W6 m ρ c (Proc.devRef .tc main_v41) = bArr (X0 m c) (X2 m c) (X4 m c) :=
  (W6_in m ρ c 2 rfl).trans (W5_v41 m ρ c)
theorem W6_v43 (c : Dev nD) : W6 m ρ c (Proc.devRef .tc main_v43) = out0 (X3 m c) :=
  (W6_of_ne m ρ c main_v43 (by decide)).trans (W5_v43 m ρ c)

/-- The first region's output: the messages of the table gathered from the input table. -/
theorem W6_v51 (c : Dev nD) : W6 m ρ c (Proc.devRef .tc main_v51)
    = scaleArr (gatherRows (X0 m c) (X3 m c)) (aArr (X0 m c) (X1 m c)) (bArr (X0 m c) (X2 m c) (X4 m c)) := by
  refine ((W6_arr m ρ c 3).trans (arr0 (V5 m ρ) c)).trans ?_
  show scaleArr (W5 m ρ c (Proc.devRef .tc main_v50)) (W5 m ρ c (Proc.devRef .tc main_v38))
    (W5 m ρ c (Proc.devRef .tc main_v41)) = _
  rw [W5_v50, W5_v38, W5_v41]

/-- After the first region and the stretch behind it (region 1's entry). -/
theorem W7_v1 (c : Dev nD) : W7 m ρ c (Proc.devRef .tc main_v1) = row (X0 m c) := by
  show StableHlo.after hostOps1 (W6 m ρ c) (Proc.devRef .tc main_v1) = _
  after_results_simp
  exact W6_v1 m ρ c
theorem W7_v3 (c : Dev nD) : W7 m ρ c (Proc.devRef .tc main_v3) = col (X0 m c) := by
  show StableHlo.after hostOps1 (W6 m ρ c) (Proc.devRef .tc main_v3) = _
  after_results_simp
  exact W6_v3 m ρ c
theorem W7_v38 (c : Dev nD) : W7 m ρ c (Proc.devRef .tc main_v38) = aArr (X0 m c) (X1 m c) := by
  show StableHlo.after hostOps1 (W6 m ρ c) (Proc.devRef .tc main_v38) = _
  after_results_simp
  exact W6_v38 m ρ c
theorem W7_v41 (c : Dev nD) : W7 m ρ c (Proc.devRef .tc main_v41) = bArr (X0 m c) (X2 m c) (X4 m c) := by
  show StableHlo.after hostOps1 (W6 m ρ c) (Proc.devRef .tc main_v41) = _
  after_results_simp
  exact W6_v41 m ρ c
theorem W7_v54 (c : Dev nD) : W7 m ρ c (Proc.devRef .tc main_v54) = h1 (X0 m c) (X1 m c) (X2 m c) (X3 m c) (X4 m c) := by
  show StableHlo.after hostOps1 (W6 m ρ c) (Proc.devRef .tc main_v54) = _
  after_results_simp
  rw [W6_v3, W6_v51]
  rfl
theorem W7_v57 (c : Dev nD) : W7 m ρ c (Proc.devRef .tc main_v57) = out1 (X0 m c) (X1 m c) (X2 m c) (X3 m c) (X4 m c) := by
  show StableHlo.after hostOps1 (W6 m ρ c) (Proc.devRef .tc main_v57) = _
  after_results_simp
  rw [W6_v3, W6_v51, W6_v43]
  rfl
theorem W7_v64 (c : Dev nD) :
    W7 m ρ c (Proc.devRef .tc main_v64) = gatherRows (X0 m c) (h1 (X0 m c) (X1 m c) (X2 m c) (X3 m c) (X4 m c)) := by
  show StableHlo.after hostOps1 (W6 m ρ c) (Proc.devRef .tc main_v64) = _
  after_results_simp
  rw [W6_v3, W6_v51, W6_v1]
  rfl

/-! ## The second region's exit -/

/-- An input array of the second region is at its exit what it was at its entry. -/
theorem W8_in (c : Dev nD) (w : Fin cfg1.W) (hin : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w hin _).trans (A_eq1 (V7 m ρ) c w))

theorem W8_v1 (c : Dev nD) : W8 m ρ c (Proc.devRef .tc main_v1) = row (X0 m c) :=
  (W8_of_ne m ρ c main_v1 (by decide)).trans (W7_v1 m ρ c)
theorem W8_v3 (c : Dev nD) : W8 m ρ c (Proc.devRef .tc main_v3) = col (X0 m c) :=
  (W8_of_ne m ρ c main_v3 (by decide)).trans (W7_v3 m ρ c)
theorem W8_v38 (c : Dev nD) : W8 m ρ c (Proc.devRef .tc main_v38) = aArr (X0 m c) (X1 m c) :=
  (W8_in m ρ c 1 rfl).trans (W7_v38 m ρ c)
theorem W8_v41 (c : Dev nD) : W8 m ρ c (Proc.devRef .tc main_v41) = bArr (X0 m c) (X2 m c) (X4 m c) :=
  (W8_in m ρ c 2 rfl).trans (W7_v41 m ρ c)
theorem W8_v57 (c : Dev nD) : W8 m ρ c (Proc.devRef .tc main_v57) = out1 (X0 m c) (X1 m c) (X2 m c) (X3 m c) (X4 m c) :=
  (W8_of_ne m ρ c main_v57 (by decide)).trans (W7_v57 m ρ c)

/-- The second region's output: the messages of the table gathered from h1. -/
theorem W8_v65 (c : Dev nD) : W8 m ρ c (Proc.devRef .tc main_v65)
    = scaleArr (gatherRows (X0 m c) (h1 (X0 m c) (X1 m c) (X2 m c) (X3 m c) (X4 m c)))
        (aArr (X0 m c) (X1 m c)) (bArr (X0 m c) (X2 m c) (X4 m c)) := by
  refine ((W8_arr m ρ c 3).trans (arr1 (V7 m ρ) c)).trans ?_
  show scaleArr (W7 m ρ c (Proc.devRef .tc main_v64)) (W7 m ρ c (Proc.devRef .tc main_v38))
    (W7 m ρ c (Proc.devRef .tc main_v41)) = _
  rw [W7_v64, W7_v38, W7_v41]

/-- After the second region and the stretch behind it (region 2's entry). -/
theorem W9_v3 (c : Dev nD) : W9 m ρ c (Proc.devRef .tc main_v3) = col (X0 m c) := by
  show StableHlo.after hostOps2 (W8 m ρ c) (Proc.devRef .tc main_v3) = _
  after_results_simp
  exact W8_v3 m ρ c
theorem W9_v38 (c : Dev nD) : W9 m ρ c (Proc.devRef .tc main_v38) = aArr (X0 m c) (X1 m c) := by
  show StableHlo.after hostOps2 (W8 m ρ c) (Proc.devRef .tc main_v38) = _
  after_results_simp
  exact W8_v38 m ρ c
theorem W9_v41 (c : Dev nD) : W9 m ρ c (Proc.devRef .tc main_v41) = bArr (X0 m c) (X2 m c) (X4 m c) := by
  show StableHlo.after hostOps2 (W8 m ρ c) (Proc.devRef .tc main_v41) = _
  after_results_simp
  exact W8_v41 m ρ c
theorem W9_v71 (c : Dev nD) : W9 m ρ c (Proc.devRef .tc main_v71) = out2 (X0 m c) (X1 m c) (X2 m c) (X3 m c) (X4 m c) := by
  show StableHlo.after hostOps2 (W8 m ρ c) (Proc.devRef .tc main_v71) = _
  after_results_simp
  rw [W8_v3, W8_v65, W8_v57]
  rfl
theorem W9_v78 (c : Dev nD) :
    W9 m ρ c (Proc.devRef .tc main_v78) = gatherRows (X0 m c) (h2 (X0 m c) (X1 m c) (X2 m c) (X3 m c) (X4 m c)) := by
  show StableHlo.after hostOps2 (W8 m ρ c) (Proc.devRef .tc main_v78) = _
  after_results_simp
  rw [W8_v3, W8_v65, W8_v1]
  rfl

/-! ## The third region's exit -/

theorem W10_v3 (c : Dev nD) : W10 m ρ c (Proc.devRef .tc main_v3) = col (X0 m c) :=
  (W10_of_ne m ρ c main_v3 (by decide)).trans (W9_v3 m ρ c)
theorem W10_v71 (c : Dev nD) : W10 m ρ c (Proc.devRef .tc main_v71) = out2 (X0 m c) (X1 m c) (X2 m c) (X3 m c) (X4 m c) :=
  (W10_of_ne m ρ c main_v71 (by decide)).trans (W9_v71 m ρ c)

/-- The third region's output: the messages of the table gathered from h2. -/
theorem W10_v79 (c : Dev nD) : W10 m ρ c (Proc.devRef .tc main_v79)
    = scaleArr (gatherRows (X0 m c) (h2 (X0 m c) (X1 m c) (X2 m c) (X3 m c) (X4 m c)))
        (aArr (X0 m c) (X1 m c)) (bArr (X0 m c) (X2 m c) (X4 m c)) := by
  refine ((W10_arr m ρ c 3).trans (arr2 (V9 m ρ) c)).trans ?_
  show scaleArr (W9 m ρ c (Proc.devRef .tc main_v78)) (W9 m ρ c (Proc.devRef .tc main_v38))
    (W9 m ρ c (Proc.devRef .tc main_v41)) = _
  rw [W9_v78, W9_v38, W9_v41]

/-- After the third region and the last stretch: the result. -/
theorem kernel_value (c : Dev nD) :
    W11 m ρ c (Proc.devRef .tc main_v85) = kres (X0 m c) (X1 m c) (X2 m c) (X3 m c) (X4 m c) := by
  show StableHlo.after hostOps3 (W10 m ρ c) (Proc.devRef .tc main_v85) = _
  after_results_simp
  rw [W10_v3, W10_v79, W10_v71]
  rfl

end Cert.KernelIdeal.StageB

end
-- ==== Proof.LibReal.lean ====
/-
  Extended reals that are real numbers, and arrays all of whose entries are.

  Over the extended reals a sum or a product can meet an infinity; over the reals it cannot. The lemmas here say that the
  real numbers inside the extended reals are closed under what a dense layer does: sums (finite ones too), products,
  differences, maxima and minima, and a quotient by a real that is not zero. Then the same for whole arrays, operation by
  operation: a constant zero or one, a broadcast, a transpose and a gather (each entry of the result is an entry of the
  operand), an accumulating scatter (an entry plus a finite sum of updates), a contraction (a finite sum of products),
  a column sum, and the pointwise operations. Last: an array whose test "every |entry| is below +infinity" came out true
  has real entries only.
-/
import Idealize.ShloMosaic.PureOps.Ideal.Laws
import Idealize.ShloMosaic.Lib.IdealHost
import Idealize.ShloMosaic.Lib.ReduceAll

noncomputable section

namespace Cert.RealLib

open Idealize.ShloMosaic
open scoped BigOperators

/-! ## One extended real -/

/-- The extended real is a real number. -/
abbrev IsReal (x : EReal) : Prop := ∃ r : ℝ, x = (r : EReal)

theorem isReal_coe (r : ℝ) : IsReal (r : EReal) := ⟨r, rfl⟩
theorem isReal_zero : IsReal (0 : EReal) := ⟨0, EReal.coe_zero.symm⟩
theorem isReal_one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.max {x y : EReal} (hx : IsReal x) (hy : IsReal y) : IsReal (Max.max x y) := by
  rcases max_choice x y with h | h <;> rw [h] <;> assumption
theorem IsReal.min {x y : EReal} (hx : IsReal x) (hy : IsReal y) : IsReal (Min.min x y) := by
  rcases min_choice x y with h | h <;> rw [h] <;> assumption

/-- A finite sum of reals is a real. -/
theorem IsReal.sum {ι : Type*} (s : Finset ι) {f : ι → EReal} (h : ∀ i ∈ s, IsReal (f i)) : IsReal (∑ i ∈ s, f i) :=
  Finset.sum_induction f IsReal (fun _ _ => IsReal.add) isReal_zero h

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- What is neither infinity is a real. -/
theorem isReal_of_ne {x : EReal} (h1 : x ≠ ⊤) (h2 : x ≠ ⊥) : IsReal x := by
  induction x using EReal.rec with
  | bot => exact absurd rfl h2
  | coe r => exact ⟨r, rfl⟩
  | top => exact absurd rfl h1

/-- The extended real is a real number other than zero. -/
abbrev IsNZReal (x : EReal) : Prop := ∃ r : ℝ, r ≠ 0 ∧ x = (r : EReal)

theorem IsNZReal.isReal {x : EReal} (hx : IsNZReal x) : IsReal x := by obtain ⟨r, -, h⟩ := hx; exact ⟨r, h⟩

/-- The quotient of a real by a real that is not zero is a real. -/
theorem IsReal.div {x y : EReal} (hx : IsReal x) (hy : IsNZReal y) : IsReal (Ideal.div x y) := by
  obtain ⟨r, h0, rfl⟩ := hy
  rw [Ideal.div_coe h0]
  exact hx.mul (isReal_coe _)

/-- The larger of a real and one is a real that is at least one, so not zero. -/
theorem IsReal.max_one {x : EReal} (hx : IsReal x) : IsNZReal (Max.max x 1) := by
  obtain ⟨a, rfl⟩ := hx
  refine ⟨Max.max a 1, ?_, ?_⟩
  · have : (1 : ℝ) ≤ Max.max a 1 := le_max_right a 1
    intro h0; rw [h0] at this; exact absurd this (by norm_num)
  · rw [← EReal.coe_one]; exact (EReal.coe_strictMono.monotone.map_max (a := a) (b := 1))

/-! ## Arrays -/

/-- Every entry of the array is a real. -/
abbrev AllReal {s : Shape} (v : s.Idx → EReal) : Prop := ∀ i, IsReal (v i)
/-- Every entry of the array is a real other than zero. -/
abbrev AllNZReal {s : Shape} (v : s.Idx → EReal) : Prop := ∀ i, IsNZReal (v i)

theorem AllNZReal.allReal {s : Shape} {v : s.Idx → EReal} (h : AllNZReal v) : AllReal v := fun i => (h i).isReal

theorem allReal_constant_zero (s : Shape) : AllReal (constant (F := Ideal) s .f32 0x00000000#32) :=
  fun _ => ⟨0, by show Ideal.ofBits .f32 0x00000000#32 = _; rw [Ideal.ofBits_zero_f32]; exact EReal.coe_zero.symm⟩
theorem allReal_constant_one (s : Shape) : AllReal (constant (F := Ideal) s .f32 0x3F800000#32) :=
  fun _ => ⟨1, by show Ideal.ofBits .f32 0x3F800000#32 = _; rw [Ideal.ofBits_one_f32]; exact EReal.coe_one.symm⟩

section Ops
variable {s t : Shape} {φ : FTy}

/-- Each entry of a broadcast is an entry of the operand. -/
theorem AllReal.broadcastInDim {x : s.Idx → EReal} (h : AllReal x) (dims : Fin s.rank → Fin t.rank)
    (hb : s.BroadcastsInDim t dims) : AllReal (broadcastInDim t dims hb x) := fun _ => h _
theorem AllNZReal.broadcastInDim {x : s.Idx → EReal} (h : AllNZReal x) (dims : Fin s.rank → Fin t.rank)
    (hb : s.BroadcastsInDim t dims) : AllNZReal (broadcastInDim t dims hb x) := fun _ => h _

/-- Each entry of a transpose is an entry of the operand. -/
theorem AllReal.transpose {x : s.Idx → EReal} (h : AllReal x) (perm : List (Fin s.rank)) (ht : s.Transposes perm t) :
    AllReal (transpose t perm x ht) := fun _ => h _

/-- Each entry of a gather is an entry of the operand. -/
theorem AllReal.gather {si : Shape} {w : ℕ} {x : s.Idx → EReal} (h : AllReal x) (d : GatherDims s si t) (idx : IVec si w) :
    AllReal (Host.gather d x idx) := fun _ => h _

/-- Each entry of an accumulating scatter is the operand's entry plus a finite sum of updates. -/
theorem AllReal.scatterAdd {si u : Shape} {w : ℕ} {x : FVec Ideal s φ} {upd : FVec Ideal u φ} (hx : AllReal x)
    (hu : AllReal upd) (d : ScatterDims s si u) (idx : IVec si w) : AllReal (Host.scatterAdd d x idx upd) :=
  fun i => (hx i).add (IsReal.sum _ fun j _ => hu j)

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllReal.minimumf {x y : FVec Ideal s φ} (hx : AllReal x) (hy : AllReal y) : AllReal (minimumf x y) :=
  fun i => (hx i).min (hy i)

/-- The host's quotient by an array of reals none of which is zero. -/
theorem AllReal.hostDivf {x y : FVec Ideal s φ} (hx : AllReal x) (hy : AllNZReal y) : AllReal (Host.divf x y) :=
  fun i => (hx i).div (hy i)

/-- The pointwise larger of an array of reals and the constant one: reals, none zero. -/
theorem AllReal.maximumf_one {x : FVec Ideal s .f32} (hx : AllReal x) {y : FVec Ideal s .f32} (hy : ∀ i, y i = 1) :
    AllNZReal (Idealize.ShloMosaic.maximumf x y) := fun i => by
  show IsNZReal (Max.max (x i) (y i))
  rw [hy i]; exact (hx i).max_one

/-- A contraction is, at each index, a finite sum of products. -/
theorem AllReal.dotGeneral {sl sr so : Shape} {φ₁ φ₂ : FTy} {l : FVec Ideal sl φ₁} {r : FVec Ideal sr φ₂} (hl : AllReal l)
    (hr : AllReal r) (d : DotDims sl sr so) (prec : Option ContractPrecision) : AllReal (Host.dotGeneral d prec l r) :=
  fun j => isReal_zero.add (IsReal.sum _ fun k _ => (hl _).mul (hr _))

/-- A sum over some axes is, at each index, the initial value plus a finite sum of entries. -/
theorem AllReal.reduceAdd {axes : List (Fin s.rank)} {u : Shape} {x : FVec Ideal s φ} {init : u.Idx → Ideal φ}
    (hx : AllReal x) (hi : ∀ k, IsReal (init k)) (h : s.ReducesTo axes t) (hu : 0 < u.numel) :
    AllReal (Host.reduceAdd x init h hu) :=
  fun _ => (hi _).add (IsReal.sum _ fun i _ => hx i)

end Ops

/-! ## The test "every |entry| is below +infinity" -/

instance : Subsingleton (Shape.Idx ⟨0, ![]⟩) := ⟨fun a b => funext fun d => d.elim0⟩

theorem inf_bits : Ideal.ofBits .f32 0x7F800000#32 = (⊤ : EReal) := by
  simp [Ideal.ofBits, Ideal.ieee]

/-- An extended real whose absolute value is below +infinity is a real. -/
theorem isReal_of_abs_lt_inf (x : EReal)
    (h : Ideal.cmp .olt (Max.max x (-x)) (Ideal.ofBits .f32 0x7F800000#32) = 1#1) : IsReal x := by
  rw [inf_bits] at h
  induction x using EReal.rec with
  | bot => simp [Ideal.cmp] at h
  | coe r => exact ⟨r, rfl⟩
  | top => simp [Ideal.cmp] at h

/-- An array of which `all (|v| < +inf)` came out true has real entries only. -/
theorem allReal_of_all_abs_lt_inf {s : Shape} {axes : List (Fin s.rank)} (v : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (j : (⟨0, ![]⟩ : Shape).Idx)
    (h : Host.reduce IntOp.andi
          (cmpf .olt (Host.absf v) (broadcastInDim s ![] hb (constant (F := Ideal) ⟨0, ![]⟩ .f32 0x7F800000#32)))
          (constantI ⟨0, ![]⟩ 1 1#1) hr hu j = 1#1) : AllReal v := fun i =>
  isReal_of_abs_lt_inf (v i) (Host.reduce_andi_all _ _ hr hu j h i)

end Cert.RealLib

end
-- ==== Proof.RealV.lean ====
/-
  Real entries, and the law that joins the two forms of the message.

  Over the extended reals a product does not distribute over a sum when an infinity is involved, so
  (g * w + t) * n and g * (w * n) + t * n are equal only where the entries are real numbers. They are:
  the three float arguments by the precondition; the out-degrees, a finite count of ones; the inverse square roots,
  taken only of a positive degree or of one; the edge weights, a product of two of those; a gathered array, whose entries
  are entries of the table it reads; and a table summed from real messages. With real entries the law is the reals'
  own distributivity and associativity, entry by entry, once the column a = w * n is read at (e, 0) and the
  repeated columns at (e, d) as the vectors' entry e.
-/
import proofs.«175497_j50457275794115_1_alg».proof.Proof.KSpec
import proofs.«175497_j50457275794115_1_alg».proof.Proof.LibReal
import Idealize.ShloMosaic.PureOps.Ideal.Laws
import Idealize.ShloMosaic.Lib.ValueIdx
import Idealize.ShloMosaic.Lib.Pipeline.Value

noncomputable section

namespace Cert.KernelIdeal.RealV

open Cert.KernelIdeal Cert.KernelIdeal.Gen Cert.KernelIdeal.KSpec Cert.RealLib
open Idealize.ShloMosaic Idealize.ShloMosaic.ValueIdx

/-! ## The law, for four real numbers -/

theorem msg_law {x w t n : EReal} (hx : IsReal x) (hw : IsReal w) (ht : IsReal t) (hn : IsReal n) :
    x * (w * n) + t * n = (x * w + t) * n := by
  obtain ⟨a, rfl⟩ := hx; obtain ⟨b, rfl⟩ := hw; obtain ⟨c, rfl⟩ := ht; obtain ⟨d, rfl⟩ := hn
  exact_mod_cast (by ring : a * (b * d) + c * d = (a * b + c) * d)

/-! ## The layouts read at an index -/

/-- The edge e of an index (e, d). -/
abbrev edgeOf (i : S1250000x64.Idx) : S1250000.Idx := fun a => match a with
  | ⟨0, _⟩ => ⟨(i 0).val, (i 0).isLt⟩

/-- A vector over the edges, as a column repeated along the lanes, holds its entry e at (e, d). -/
theorem lanes_apply (v : TE Ideal) (i : S1250000x64.Idx) : alongLanes (asCol v) i = v (edgeOf i) := by
  show broadcastInDim S1250000x64 ![0, 1] bcast_S1250000x1_S1250000x64_0_1
      (broadcastInDim S1250000x1 ![0] bcast_S1250000_S1250000x1_0 v) i = _
  rw [broadcastInDim_apply _ bcast_S1250000x1_S1250000x64_0_1 _ i (colOf i) (fun a => match a with
    | ⟨0, _⟩ => by show (i 0).val = if (1250000 : Nat) = 1 then 0 else (i 0).val; rw [if_neg (by decide)]
    | ⟨1, _⟩ => by show 0 = if (1 : Nat) = 1 then 0 else (i 1).val; rw [if_pos rfl])]
  exact broadcastInDim_apply _ bcast_S1250000_S1250000x1_0 v (colOf i) (edgeOf i) (fun a => match a with
    | ⟨0, _⟩ => by show (i 0).val = if (1250000 : Nat) = 1 then 0 else (i 0).val; rw [if_neg (by decide)])

/-- A vector over the edges reshaped to a column holds its entry e at (e, 0). -/
theorem col_apply (v : TE Ideal) (i : S1250000x64.Idx) :
    shapeCast S1250000x1 v shapeCasts_S1250000_S1250000x1 (colOf i) = v (edgeOf i) :=
  shapeCast_apply v shapeCasts_S1250000_S1250000x1 (colOf i) (edgeOf i) (by
    rewrite [Shape.rowMajor_val_two, Shape.rowMajor_val_one]
    show (i 0).val = (i 0).val * 1 + 0
    omega)

/-! ## The two forms of the message agree on real entries -/

theorem msg_eq (g : TE64 Ideal) (w : TE Ideal) (t : TE64 Ideal) (n : TE Ideal)
    (hg : AllReal (s := S1250000x64) g) (hw : AllReal (s := S1250000) w)
    (ht : AllReal (s := S1250000x64) t) (hn : AllReal (s := S1250000) n) :
    kerMsg g w t n = refMsg g w t n := by
  funext i
  have e1 : shapeCast S1250000x1 (mulf (F := Ideal) (s := S1250000) (φ := .f32) w n) shapeCasts_S1250000_S1250000x1 (colOf i)
      = (w (edgeOf i) : EReal) * n (edgeOf i) := col_apply (mulf (F := Ideal) (s := S1250000) (φ := .f32) w n) i
  have e2 := lanes_apply n i
  have e3 := lanes_apply w i
  show FloatOps.addf (FloatOps.mulf (g i) (shapeCast S1250000x1 (mulf (F := Ideal) (s := S1250000) (φ := .f32) w n) shapeCasts_S1250000_S1250000x1 (colOf i)))
        (FloatOps.mulf (t i) (alongLanes (asCol n) i))
     = FloatOps.mulf (FloatOps.addf (FloatOps.mulf (g i) (alongLanes (asCol w) i)) (t i)) (alongLanes (asCol n) i)
  rw [e1, e2, e3]
  exact msg_law (hg i) (hw _) (ht i) (hn _)

/-! ## The degree stages at a node, for any float family -/

section AnyFamily
variable {F : FTy → Type} [FloatOps F]

theorem zerosN_apply (i : S200000.Idx) : zerosN (F := F) i = FloatOps.ofBits .f32 0x00000000#32 := rfl

theorem degOrOne_apply (x0 : TIdx2 F) (i : S200000.Idx) :
    degOrOne x0 i = Scalar.select (FloatOps.cmpf .ogt (deg x0 i) (zerosN (F := F) i)) (deg x0 i)
      (FloatOps.ofBits .f32 0x3F800000#32) := rfl

theorem dinv_apply (x0 : TIdx2 F) (i : S200000.Idx) :
    dinv x0 i = Scalar.select (FloatOps.cmpf .ogt (deg x0 i) (zerosN (F := F) i)) (FloatOps.hostUnary .rsqrt (degOrOne x0 i))
      (FloatOps.ofBits .f32 0x00000000#32) := rfl

end AnyFamily

/-! ## Real entries along the program -/

theorem isReal_select (c : BitVec 1) {a b : EReal} (ha : IsReal a) (hb : IsReal b) : IsReal (Scalar.select c a b) := by
  unfold Scalar.select; split <;> assumption

theorem allReal_zerosN : AllReal (s := S200000) (zerosN (F := Ideal)) :=
  (allReal_constant_zero S_).broadcastInDim _ _
theorem allReal_onesE : AllReal (s := S1250000) (onesE (F := Ideal)) :=
  (allReal_constant_one S_).broadcastInDim _ _
theorem allReal_zerosN64 : AllReal (s := S200000x64) (zerosN64 (F := Ideal)) :=
  (allReal_constant_zero S_).broadcastInDim _ _

/-- The out-degrees are real: each is zero plus a finite sum of ones. -/
theorem allReal_deg (x0 : TIdx2 Ideal) : AllReal (s := S200000) (deg x0) :=
  AllReal.scatterAdd allReal_zerosN allReal_onesE _ _

/-- The degree where positive, one elsewhere: a positive real at every node. -/
theorem degOrOne_pos (x0 : TIdx2 Ideal) (i : S200000.Idx) : ∃ r : ℝ, 0 < r ∧ degOrOne x0 i = (r : EReal) := by
  obtain ⟨d, hd⟩ := allReal_deg x0 i
  rw [degOrOne_apply, zerosN_apply, Ideal.cmpf_def, Ideal.ofBits_def, Ideal.ofBits_def, Ideal.ofBits_zero_f32,
    Ideal.ofBits_one_f32, hd]
  by_cases h : (0 : ℝ) < d
  · refine ⟨d, h, ?_⟩
    have hc : Ideal.cmp .ogt (d : EReal) 0 = 1#1 := by simp [Ideal.cmp, h]
    rw [hc, select_one]
  · refine ⟨1, one_pos, ?_⟩
    have hc : Ideal.cmp .ogt (d : EReal) 0 = 0#1 := by simp [Ideal.cmp, h]
    rw [hc, select_zero]; exact EReal.coe_one.symm

/-- The inverse square roots are real: taken of a positive real, or replaced by zero. -/
theorem allReal_dinv (x0 : TIdx2 Ideal) : AllReal (s := S200000) (dinv x0) := fun i => by
  obtain ⟨r, hr, he⟩ := degOrOne_pos x0 i
  rw [dinv_apply, Ideal.hostUnary_rsqrt_def, he, Ideal.ofBits_def, Ideal.ofBits_zero_f32]
  refine isReal_select _ ?_ isReal_zero
  rw [Ideal.rsqrt_coe, if_neg (not_lt.2 hr.le), if_neg hr.ne']
  exact ⟨_, rfl⟩

/-- The edge weights are real: a product of two gathered inverse square roots. -/
theorem allReal_norm (x0 : TIdx2 Ideal) : AllReal (s := S1250000) (norm x0) :=
  AllReal.mulf ((allReal_dinv x0).gather _ _) ((allReal_dinv x0).gather _ _)

/-- The gathered type embeddings are entries of the type table. -/
theorem allReal_et (x2 : TEi Ideal) (x4 : TT64 Ideal) (h4 : AllReal (s := S3x64) x4) : AllReal (s := S1250000x64) (et x2 x4) :=
  h4.gather _ _

theorem allReal_gatherRows (x0 : TIdx2 Ideal) (h : TN64 Ideal) (hh : AllReal (s := S200000x64) h) :
    AllReal (s := S1250000x64) (gatherRows x0 h) := hh.gather _ _

theorem allReal_sumCols (x0 : TIdx2 Ideal) (msg : TE64 Ideal) (hm : AllReal (s := S1250000x64) msg) :
    AllReal (s := S200000x64) (sumCols x0 msg) := AllReal.scatterAdd allReal_zerosN64 hm _ _

theorem allReal_refMsg (g : TE64 Ideal) (w : TE Ideal) (t : TE64 Ideal) (n : TE Ideal)
    (hg : AllReal (s := S1250000x64) g) (hw : AllReal (s := S1250000) w)
    (ht : AllReal (s := S1250000x64) t) (hn : AllReal (s := S1250000) n) : AllReal (s := S1250000x64) (refMsg g w t n) :=
  AllReal.mulf (AllReal.addf (AllReal.mulf hg ((hw.broadcastInDim _ _).broadcastInDim _ _)) ht)
    ((hn.broadcastInDim _ _).broadcastInDim _ _)

/-! ## One layer -/

/-- On a table with real entries the kernel's layer is the reference's: the same gather and the same sum around the two
    forms of the message. -/
theorem layer_eq (x0 : TIdx2 Ideal) (x1 : TE Ideal) (x2 : TEi Ideal) (x4 : TT64 Ideal) (h : TN64 Ideal)
    (h1 : AllReal (s := S1250000) x1) (h4 : AllReal (s := S3x64) x4) (hh : AllReal (s := S200000x64) h) :
    layer x0 x1 x2 x4 h = sumCols x0 (refMsg (gatherRows x0 h) x1 (et x2 x4) (norm x0)) := by
  have e : scaleArr (gatherRows x0 h) (aArr x0 x1) (bArr x0 x2 x4) = kerMsg (gatherRows x0 h) x1 (et x2 x4) (norm x0) := rfl
  unfold layer
  rw [e, msg_eq _ _ _ _ (allReal_gatherRows x0 h hh) h1 (allReal_et x2 x4 h4) (allReal_norm x0)]

/-- And the new table has real entries again. -/
theorem allReal_layer (x0 : TIdx2 Ideal) (x1 : TE Ideal) (x2 : TEi Ideal) (x4 : TT64 Ideal) (h : TN64 Ideal)
    (h1 : AllReal (s := S1250000) x1) (h4 : AllReal (s := S3x64) x4) (hh : AllReal (s := S200000x64) h) :
    AllReal (s := S200000x64) (layer x0 x1 x2 x4 h) := by
  rw [layer_eq x0 x1 x2 x4 h h1 h4 hh]
  exact allReal_sumCols x0 _ (allReal_refMsg _ _ _ _ (allReal_gatherRows x0 h hh) h1 (allReal_et x2 x4 h4) (allReal_norm x0))

end Cert.KernelIdeal.RealV

end
-- ==== Proof.Bridge.lean ====
/-
  The kernel program's result is the reference's.

  Stage by stage the reference's program is the specification's: the same rows and columns, degrees, inverse square
  roots and edge weights, the same gathered type embeddings, the same gather along the rows and the same sum into the
  columns; only the message between them is formed as (g * w + t) * n. On tables with real entries that is the
  kernel's g * (w * n) + t * n, so the three tables agree one after the other, each with real entries again, and
  the two sums of quarters are the same table.
-/
import proofs.«175497_j50457275794115_1_alg».proof.Proof.RealV
import proofs.«175497_j50457275794115_1_alg».proof.Proof.RefRead

noncomputable section

namespace Cert.Proof.Bridge

open Cert.KernelIdeal.KSpec Cert.KernelIdeal.RealV Cert.RealLib Idealize.ShloMosaic
open Cert.ReferenceIdeal.ReadP

/-! ## The reference's stages, for any float family -/

section AnyFamily
variable {F : FTy → Type} [FloatOps F]
variable (x0 : TIdx2 F) (x1 : TE F) (x2 : TEi F) (x3 : TN64 F) (x4 : TT64 F)

theorem ref_msg1 : val_main_v52 (F := F) x0 x1 x2 x3 x4 = refMsg (gatherRows x0 x3) x1 (et x2 x4) (norm x0) := rfl
theorem ref_h1 : val_main_v55 (F := F) x0 x1 x2 x3 x4 = sumCols x0 (val_main_v52 (F := F) x0 x1 x2 x3 x4) := rfl
theorem ref_msg2 : val_main_v71 (F := F) x0 x1 x2 x3 x4
    = refMsg (gatherRows x0 (val_main_v55 (F := F) x0 x1 x2 x3 x4)) x1 (et x2 x4) (norm x0) := rfl
theorem ref_h2 : val_main_v74 (F := F) x0 x1 x2 x3 x4 = sumCols x0 (val_main_v71 (F := F) x0 x1 x2 x3 x4) := rfl
theorem ref_msg3 : val_main_v90 (F := F) x0 x1 x2 x3 x4
    = refMsg (gatherRows x0 (val_main_v74 (F := F) x0 x1 x2 x3 x4)) x1 (et x2 x4) (norm x0) := rfl
theorem ref_h3 : val_main_v93 (F := F) x0 x1 x2 x3 x4 = sumCols x0 (val_main_v90 (F := F) x0 x1 x2 x3 x4) := rfl
theorem ref_out : val_main_v96 (F := F) x0 x1 x2 x3 x4
    = addf (addf (addf (out0 x3) (mulf (val_main_v55 (F := F) x0 x1 x2 x3 x4) quarter))
        (mulf (val_main_v74 (F := F) x0 x1 x2 x3 x4) quarter)) (mulf (val_main_v93 (F := F) x0 x1 x2 x3 x4) quarter) := rfl
theorem kres_out : kres x0 x1 x2 x3 x4
    = addf (addf (addf (out0 x3) (mulf (h1 x0 x1 x2 x3 x4) quarter)) (mulf (h2 x0 x1 x2 x3 x4) quarter))
        (mulf (h3 x0 x1 x2 x3 x4) quarter) := rfl

end AnyFamily

/-! ## The three tables, and the result -/

theorem kres_eq (x0 : TIdx2 Ideal) (x1 : TE Ideal) (x2 : TEi Ideal) (x3 : TN64 Ideal) (x4 : TT64 Ideal)
    (hw : AllReal (s := Cert.KernelIdeal.S1250000) x1) (hx : AllReal (s := Cert.KernelIdeal.S200000x64) x3)
    (ht : AllReal (s := Cert.KernelIdeal.S3x64) x4) :
    kres x0 x1 x2 x3 x4 = val_main_v96 (F := Ideal) x0 x1 x2 x3 x4 := by
  have e1 : h1 x0 x1 x2 x3 x4 = val_main_v55 (F := Ideal) x0 x1 x2 x3 x4 := by
    rw [ref_h1, ref_msg1]; exact layer_eq x0 x1 x2 x4 x3 hw ht hx
  have r1 : AllReal (s := Cert.KernelIdeal.S200000x64) (h1 x0 x1 x2 x3 x4) := allReal_layer x0 x1 x2 x4 x3 hw ht hx
  have e2 : h2 x0 x1 x2 x3 x4 = val_main_v74 (F := Ideal) x0 x1 x2 x3 x4 := by
    rw [ref_h2, ref_msg2, ← e1]; exact layer_eq x0 x1 x2 x4 (h1 x0 x1 x2 x3 x4) hw ht r1
  have r2 : AllReal (s := Cert.KernelIdeal.S200000x64) (h2 x0 x1 x2 x3 x4) := allReal_layer x0 x1 x2 x4 _ hw ht r1
  have e3 : h3 x0 x1 x2 x3 x4 = val_main_v93 (F := Ideal) x0 x1 x2 x3 x4 := by
    rw [ref_h3, ref_msg3, ← e2]; exact layer_eq x0 x1 x2 x4 (h2 x0 x1 x2 x3 x4) hw ht r2
  rw [ref_out, kres_out, e1, e2, e3]

end Cert.Proof.Bridge

end
-- ==== Proof.Finite.lean ====
/-
  From the precondition to real entries.

  The precondition tests, for each of the three float arguments, that every entry's absolute value is below +infinity,
  and joins the three tests by "and". Over the extended reals an entry that passes is a real number, so when the
  precondition comes out true the edge weights, the node table and the type table have real entries only.
-/
import proofs.«175497_j50457275794115_1_alg».proof.Pre_finite_inputs
import proofs.«175497_j50457275794115_1_alg».proof.Proof.Gen.Pre_finite_inputs
import proofs.«175497_j50457275794115_1_alg».proof.Proof.LibReal
import Idealize.ShloMosaic.Lib.ReduceAll

noncomputable section

namespace Cert.Proof.Finite

open Idealize.ShloMosaic Cert.RealLib Cert.Pre_finite_inputs

/-- When the precondition holds of five arrays, the three float ones have real entries only. -/
theorem real_of_pre [hP : Cert.Pre_finite_inputs.Facts] (a0 : IVec S2x1250000 32) (a1 : FVec Ideal S1250000 .f32)
    (a2 : IVec S1250000 32) (a3 : FVec Ideal S200000x64 .f32) (a4 : FVec Ideal S3x64 .f32)
    (h : Cert.Pre_finite_inputs.fn (F := Ideal) a0 a1 a2 a3 a4 = fun _ => 1#1) :
    AllReal a1 ∧ AllReal a3 ∧ AllReal a4 := by
  -- The precondition's value is an array with one entry; read the hypothesis at that entry.
  have h0 := congrFun h (fun a => a.elim0)
  -- Opened, the entry is (t1 and t3) and t4, where tk is the test "every |entry| of the k-th float argument is below +infinity".
  dsimp only [Cert.Pre_finite_inputs.fn] at h0
  -- An "and" of one-bit words is 1 exactly when both words are 1: each of the three tests came out 1.
  obtain ⟨h13, h4⟩ := IntOp.andi_eq_one.1 h0
  obtain ⟨h1, h3⟩ := IntOp.andi_eq_one.1 h13
  -- An array whose test came out 1 has real entries only.
  exact ⟨allReal_of_all_abs_lt_inf a1 _ _ _ _ h1, allReal_of_all_abs_lt_inf a3 _ _ _ _ h3,
    allReal_of_all_abs_lt_inf a4 _ _ _ _ h4⟩

end Cert.Proof.Finite

end
-- ==== Proof.lean ====
/-
  The certificate: the scaled-message kernel program against its reference, over the extended reals.

  Both programs compute, for a graph given as an edge list, three rounds of message passing with symmetric degree
  weights: norm e = dinv (row e) * dinv (col e), h' (v, d) = the sum over the edges e into v of the message at (e, d),
  and the result a quarter of the input table plus a quarter of each round's table. The kernel program forms the message
  in a kernel region as h (row e, d) * (w e * norm e) + t (type e, d) * norm e; the reference forms it as
  (h (row e, d) * w e + t (type e, d)) * norm e. The two agree where every entry is a real number (distributivity fails
  at an infinity), and under the precondition every entry is: the arguments by the precondition, the degrees as
  finite counts, the inverse square roots as taken of positive reals only, each round's table as a finite sum of real
  messages.

  The kernel program's frames are its generated frame certificates. Its run with the result named is the same launch
  read once more at the result buffer; the result is then read boundary by boundary (the host stretches by their
  operations, each region's output array as the scaled messages of its input arrays, the blocks tiling the rows) as
  the specification's function of the five arguments. The reference's run is its operations' composed term, which stage
  by stage is the specification with the other form of the message. The bridge is the law above, applied once per round.
  The ideal pass rewrote nothing, so the idealization claim has no conjunct.
-/
import proofs.«175497_j50457275794115_1_alg».proof.Defs
import proofs.«175497_j50457275794115_1_alg».proof.Proof.Gen.Kernel
import proofs.«175497_j50457275794115_1_alg».proof.Proof.Gen.Kernel.Frame
import proofs.«175497_j50457275794115_1_alg».proof.Proof.Gen.KernelIdeal
import proofs.«175497_j50457275794115_1_alg».proof.Proof.Gen.KernelIdeal.Frame
import proofs.«175497_j50457275794115_1_alg».proof.Proof.Gen.ReferenceIdeal
import proofs.«175497_j50457275794115_1_alg».proof.Proof.Gen.Pre_finite_inputs
import proofs.«175497_j50457275794115_1_alg».proof.Proof.KRun
import proofs.«175497_j50457275794115_1_alg».proof.Proof.KStagesB
import proofs.«175497_j50457275794115_1_alg».proof.Proof.RefRead
import proofs.«175497_j50457275794115_1_alg».proof.Proof.Bridge
import proofs.«175497_j50457275794115_1_alg».proof.Proof.Finite
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments, under the precondition, both programs end with the specification's table
    of the kernel program's arguments: the kernel program by its run read boundary by boundary, the reference by its
    run's term, which on real entries is the same table. -/
theorem algebraic : Cert.algebraic_KernelIdeal_ReferenceIdeal := by
  intro m ρ m' ρ' hpre hagree
  refine ⟨fun c => Cert.KernelIdeal.KSpec.kres (Cert.KernelIdeal.StageA.X0 m c) (Cert.KernelIdeal.StageA.X1 m c)
      (Cert.KernelIdeal.StageA.X2 m c) (Cert.KernelIdeal.StageA.X3 m c) (Cert.KernelIdeal.StageA.X4 m c), ?_, ?_⟩
  · exact (θ_run Cert.KernelIdeal.defs _ _).mono
      (fun r h c => ⟨(h c).1.trans (Cert.KernelIdeal.StageB.kernel_value m ρ c), (h c).2⟩)
      (Cert.KernelIdeal.RunV.run_named m ρ)
  · refine (θ_run Cert.ReferenceIdeal.defs _ _).mono (fun r h c => ⟨(h c).1.trans ?_, (h c).2⟩)
      (Cert.ReferenceIdeal.ValueP.run (F := Ideal) m' ρ')
    obtain ⟨hw, hx, ht⟩ := Cert.Proof.Finite.real_of_pre _ _ _ _ _ (hpre c)
    rw [Cert.ReferenceIdeal.ReadP.val_main_v96_eq, (hagree c).1, (hagree c).2.1, (hagree c).2.2.1, (hagree c).2.2.2.1,
      (hagree c).2.2.2.2]
    exact (Cert.Proof.Bridge.kres_eq _ _ _ _ _ hw hx ht).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
